-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x512 : Shape := ⟨2, ![131072, 512]⟩
abbrev S512x17 : Shape := ⟨2, ![512, 17]⟩
abbrev S17 : Shape := ⟨1, ![17]⟩
abbrev S512x12 : Shape := ⟨2, ![512, 12]⟩
abbrev S12 : Shape := ⟨1, ![12]⟩
abbrev S512x6 : Shape := ⟨2, ![512, 6]⟩
abbrev S6 : Shape := ⟨1, ![6]⟩
abbrev S512x8 : Shape := ⟨2, ![512, 8]⟩
abbrev S8 : Shape := ⟨1, ![8]⟩
abbrev S131072 : Shape := ⟨1, ![131072]⟩
abbrev S_ : Shape := ⟨0, ![]⟩

class Facts : Prop where
  bcast_S_S131072x512 : S_.BroadcastsInDim S131072x512 (![] : Fin 0 → Fin S131072x512.rank)
  reducesTo_S131072x512_S_d0_1 : S131072x512.ReducesTo [0, 1] S_
  h_S_ : 0 < S_.numel
  bcast_S_S512x17 : S_.BroadcastsInDim S512x17 (![] : Fin 0 → Fin S512x17.rank)
  reducesTo_S512x17_S_d0_1 : S512x17.ReducesTo [0, 1] S_
  bcast_S_S17 : S_.BroadcastsInDim S17 (![] : Fin 0 → Fin S17.rank)
  reducesTo_S17_S_d0 : S17.ReducesTo [0] S_
  bcast_S_S512x12 : S_.BroadcastsInDim S512x12 (![] : Fin 0 → Fin S512x12.rank)
  reducesTo_S512x12_S_d0_1 : S512x12.ReducesTo [0, 1] S_
  bcast_S_S12 : S_.BroadcastsInDim S12 (![] : Fin 0 → Fin S12.rank)
  reducesTo_S12_S_d0 : S12.ReducesTo [0] S_
  bcast_S_S512x6 : S_.BroadcastsInDim S512x6 (![] : Fin 0 → Fin S512x6.rank)
  reducesTo_S512x6_S_d0_1 : S512x6.ReducesTo [0, 1] S_
  bcast_S_S6 : S_.BroadcastsInDim S6 (![] : Fin 0 → Fin S6.rank)
  reducesTo_S6_S_d0 : S6.ReducesTo [0] S_
  bcast_S_S512x8 : S_.BroadcastsInDim S512x8 (![] : Fin 0 → Fin S512x8.rank)
  reducesTo_S512x8_S_d0_1 : S512x8.ReducesTo [0, 1] S_
  bcast_S_S8 : S_.BroadcastsInDim S8 (![] : Fin 0 → Fin S8.rank)
  reducesTo_S8_S_d0 : S8.ReducesTo [0] S_

variable [Facts]

def fn_part2 {F : FTy → Type} [FloatOps F] (main_arg7 : FVec F S512x8 .f32) (main_arg8 : FVec F S8 .f32) (main_v33 : IVec S_ 1) : IVec S_ 1 :=
  let main_v34 : FVec F S512x8 .f32 := Host.absf main_arg7
  let main_cst_12 : FVec F S_ .f32 := constant S_ .f32 0x7F800000#32
  let main_v35 : FVec F S512x8 .f32 := broadcastInDim S512x8 ![] bcast_S_S512x8 main_cst_12
  let main_v36 : IVec S512x8 1 := cmpf .olt main_v34 main_v35
  let main_c_13 : IVec S_ 1 := constantI S_ 1 1#1
  let main_v37 : IVec S_ 1 := (fun x v => Host.reduce IntOp.andi x v reducesTo_S512x8_S_d0_1 h_S_) main_v36 main_c_13
  let main_v38 : IVec S_ 1 := andi main_v33 main_v37
  let main_v39 : FVec F S8 .f32 := Host.absf main_arg8
  let main_cst_14 : FVec F S_ .f32 := constant S_ .f32 0x7F800000#32
  let main_v40 : FVec F S8 .f32 := broadcastInDim S8 ![] bcast_S_S8 main_cst_14
  let main_v41 : IVec S8 1 := cmpf .olt main_v39 main_v40
  let main_c_15 : IVec S_ 1 := constantI S_ 1 1#1
  let main_v42 : IVec S_ 1 := (fun x v => Host.reduce IntOp.andi x v reducesTo_S8_S_d0 h_S_) main_v41 main_c_15
  let main_v43 : IVec S_ 1 := andi main_v38 main_v42
  main_v43

def fn_part1 {F : FTy → Type} [FloatOps F] (main_arg4 : FVec F S12 .f32) (main_arg5 : FVec F S512x6 .f32) (main_arg6 : FVec F S6 .f32) (main_arg7 : FVec F S512x8 .f32) (main_arg8 : FVec F S8 .f32) (main_v13 : IVec S_ 1) (main_v16 : IVec S512x12 1) : IVec S_ 1 :=
  let main_c_5 : IVec S_ 1 := constantI S_ 1 1#1
  let main_v17 : IVec S_ 1 := (fun x v => Host.reduce IntOp.andi x v reducesTo_S512x12_S_d0_1 h_S_) main_v16 main_c_5
  let main_v18 : IVec S_ 1 := andi main_v13 main_v17
  let main_v19 : FVec F S12 .f32 := Host.absf main_arg4
  let main_cst_6 : FVec F S_ .f32 := constant S_ .f32 0x7F800000#32
  let main_v20 : FVec F S12 .f32 := broadcastInDim S12 ![] bcast_S_S12 main_cst_6
  let main_v21 : IVec S12 1 := cmpf .olt main_v19 main_v20
  let main_c_7 : IVec S_ 1 := constantI S_ 1 1#1
  let main_v22 : IVec S_ 1 := (fun x v => Host.reduce IntOp.andi x v reducesTo_S12_S_d0 h_S_) main_v21 main_c_7
  let main_v23 : IVec S_ 1 := andi main_v18 main_v22
  let main_v24 : FVec F S512x6 .f32 := Host.absf main_arg5
  let main_cst_8 : FVec F S_ .f32 := constant S_ .f32 0x7F800000#32
  let main_v25 : FVec F S512x6 .f32 := broadcastInDim S512x6 ![] bcast_S_S512x6 main_cst_8
  let main_v26 : IVec S512x6 1 := cmpf .olt main_v24 main_v25
  let main_c_9 : IVec S_ 1 := constantI S_ 1 1#1
  let main_v27 : IVec S_ 1 := (fun x v => Host.reduce IntOp.andi x v reducesTo_S512x6_S_d0_1 h_S_) main_v26 main_c_9
  let main_v28 : IVec S_ 1 := andi main_v23 main_v27
  let main_v29 : FVec F S6 .f32 := Host.absf main_arg6
  let main_cst_10 : FVec F S_ .f32 := constant S_ .f32 0x7F800000#32
  let main_v30 : FVec F S6 .f32 := broadcastInDim S6 ![] bcast_S_S6 main_cst_10
  let main_v31 : IVec S6 1 := cmpf .olt main_v29 main_v30
  let main_c_11 : IVec S_ 1 := constantI S_ 1 1#1
  let main_v32 : IVec S_ 1 := (fun x v => Host.reduce IntOp.andi x v reducesTo_S6_S_d0 h_S_) main_v31 main_c_11
  let main_v33 : IVec S_ 1 := andi main_v28 main_v32
  fn_part2 (F := F) main_arg7 main_arg8 main_v33

def fn {F : FTy → Type} [FloatOps F] (main_arg0 : FVec F S131072x512 .f32) (main_arg1 : FVec F S512x17 .f32) (main_arg2 : FVec F S17 .f32) (main_arg3 : FVec F S512x12 .f32) (main_arg4 : FVec F S12 .f32) (main_arg5 : FVec F S512x6 .f32) (main_arg6 : FVec F S6 .f32) (main_arg7 : FVec F S512x8 .f32) (main_arg8 : FVec F S8 .f32) (main_arg9 : IVec S131072 32) : IVec S_ 1 :=
  let main_v0 : FVec F S131072x512 .f32 := Host.absf main_arg0
  let main_cst : FVec F S_ .f32 := constant S_ .f32 0x7F800000#32
  let main_v1 : FVec F S131072x512 .f32 := broadcastInDim S131072x512 ![] bcast_S_S131072x512 main_cst
  let main_v2 : IVec S131072x512 1 := cmpf .olt main_v0 main_v1
  let main_c : IVec S_ 1 := constantI S_ 1 1#1
  let main_v3 : IVec S_ 1 := (fun x v => Host.reduce IntOp.andi x v reducesTo_S131072x512_S_d0_1 h_S_) main_v2 main_c
  let main_v4 : FVec F S512x17 .f32 := Host.absf main_arg1
  let main_cst_0 : FVec F S_ .f32 := constant S_ .f32 0x7F800000#32
  let main_v5 : FVec F S512x17 .f32 := broadcastInDim S512x17 ![] bcast_S_S512x17 main_cst_0
  let main_v6 : IVec S512x17 1 := cmpf .olt main_v4 main_v5
  let main_c_1 : IVec S_ 1 := constantI S_ 1 1#1
  let main_v7 : IVec S_ 1 := (fun x v => Host.reduce IntOp.andi x v reducesTo_S512x17_S_d0_1 h_S_) main_v6 main_c_1
  let main_v8 : IVec S_ 1 := andi main_v3 main_v7
  let main_v9 : FVec F S17 .f32 := Host.absf main_arg2
  let main_cst_2 : FVec F S_ .f32 := constant S_ .f32 0x7F800000#32
  let main_v10 : FVec F S17 .f32 := broadcastInDim S17 ![] bcast_S_S17 main_cst_2
  let main_v11 : IVec S17 1 := cmpf .olt main_v9 main_v10
  let main_c_3 : IVec S_ 1 := constantI S_ 1 1#1
  let main_v12 : IVec S_ 1 := (fun x v => Host.reduce IntOp.andi x v reducesTo_S17_S_d0 h_S_) main_v11 main_c_3
  let main_v13 : IVec S_ 1 := andi main_v8 main_v12
  let main_v14 : FVec F S512x12 .f32 := Host.absf main_arg3
  let main_cst_4 : FVec F S_ .f32 := constant S_ .f32 0x7F800000#32
  let main_v15 : FVec F S512x12 .f32 := broadcastInDim S512x12 ![] bcast_S_S512x12 main_cst_4
  let main_v16 : IVec S512x12 1 := cmpf .olt main_v14 main_v15
  fn_part1 (F := F) main_arg4 main_arg5 main_arg6 main_arg7 main_arg8 main_v13 main_v16
-- ==== Kernel.lean ====
abbrev S131072x512 : Shape := ⟨2, ![131072, 512]⟩
abbrev S512x17 : Shape := ⟨2, ![512, 17]⟩
abbrev S17 : Shape := ⟨1, ![17]⟩
abbrev S512x12 : Shape := ⟨2, ![512, 12]⟩
abbrev S12 : Shape := ⟨1, ![12]⟩
abbrev S512x6 : Shape := ⟨2, ![512, 6]⟩
abbrev S6 : Shape := ⟨1, ![6]⟩
abbrev S512x8 : Shape := ⟨2, ![512, 8]⟩
abbrev S8 : Shape := ⟨1, ![8]⟩
abbrev S131072 : Shape := ⟨1, ![131072]⟩
abbrev S1x128 : Shape := ⟨2, ![1, 128]⟩
abbrev S512x43 : Shape := ⟨2, ![512, 43]⟩
abbrev S_ : Shape := ⟨0, ![]⟩
abbrev S512x128 : Shape := ⟨2, ![512, 128]⟩
abbrev S43 : Shape := ⟨1, ![43]⟩
abbrev S1x43 : Shape := ⟨2, ![1, 43]⟩
abbrev S131072x1 : Shape := ⟨2, ![131072, 1]⟩
abbrev S131072x128 : Shape := ⟨2, ![131072, 128]⟩
abbrev S4096x512 : Shape := ⟨2, ![4096, 512]⟩
abbrev S4096x1 : Shape := ⟨2, ![4096, 1]⟩
abbrev S4096x128 : Shape := ⟨2, ![4096, 128]⟩
abbrev S131072x43 : Shape := ⟨2, ![131072, 43]⟩

abbrev nBuf : Space → Nat
  | .hbm => 23
  | .vmem => 9
  | .smem => 0
  | _ => 0

abbrev bufTy : (tb : Table) → Fin (tcTables nBuf tb) → BufTy
  | .hbm, ⟨0, _⟩ => ⟨S131072x512, .f32⟩
  | .hbm, ⟨1, _⟩ => ⟨S512x17, .f32⟩
  | .hbm, ⟨2, _⟩ => ⟨S17, .f32⟩
  | .hbm, ⟨3, _⟩ => ⟨S512x12, .f32⟩
  | .hbm, ⟨4, _⟩ => ⟨S12, .f32⟩
  | .hbm, ⟨5, _⟩ => ⟨S512x6, .f32⟩
  | .hbm, ⟨6, _⟩ => ⟨S6, .f32⟩
  | .hbm, ⟨7, _⟩ => ⟨S512x8, .f32⟩
  | .hbm, ⟨8, _⟩ => ⟨S8, .f32⟩
  | .hbm, ⟨9, _⟩ => ⟨S131072, .i32⟩
  | .hbm, ⟨10, _⟩ => ⟨S1x128, .i32⟩
  | .hbm, ⟨11, _⟩ => ⟨S512x43, .f32⟩
  | .hbm, ⟨12, _⟩ => ⟨S_, .i32⟩
  | .hbm, ⟨13, _⟩ => ⟨S_, .f32⟩
  | .hbm, ⟨14, _⟩ => ⟨S512x128, .f32⟩
  | .hbm, ⟨15, _⟩ => ⟨S43, .f32⟩
  | .hbm, ⟨16, _⟩ => ⟨S1x43, .f32⟩
  | .hbm, ⟨17, _⟩ => ⟨S_, .i32⟩
  | .hbm, ⟨18, _⟩ => ⟨S_, .f32⟩
  | .hbm, ⟨19, _⟩ => ⟨S1x128, .f32⟩
  | .hbm, ⟨20, _⟩ => ⟨S131072x1, .i32⟩
  | .hbm, ⟨21, _⟩ => ⟨S131072x128, .f32⟩
  | .hbm, ⟨22, _⟩ => ⟨S131072x43, .f32⟩
  | .local _ .vmem, ⟨0, _⟩ => ⟨S4096x512, .f32⟩
  | .local _ .vmem, ⟨1, _⟩ => ⟨S4096x512, .f32⟩
  | .local _ .vmem, ⟨2, _⟩ => ⟨S512x128, .f32⟩
  | .local _ .vmem, ⟨3, _⟩ => ⟨S1x128, .f32⟩
  | .local _ .vmem, ⟨4, _⟩ => ⟨S1x128, .i32⟩
  | .local _ .vmem, ⟨5, _⟩ => ⟨S4096x1, .i32⟩
  | .local _ .vmem, ⟨6, _⟩ => ⟨S4096x1, .i32⟩
  | .local _ .vmem, ⟨7, _⟩ => ⟨S4096x128, .f32⟩
  | .local _ .vmem, ⟨8, _⟩ => ⟨S4096x128, .f32⟩
  | _, _ => ⟨S131072x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_c_0 : Ref sig .tc := ⟨.hbm, 12, rfl⟩
abbrev main_call0_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c_1 : Ref sig .tc := ⟨.hbm, 17, rfl⟩
abbrev main_call1_v0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4096x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  concatenates_S512x17_S512x12_S512x6_S512x8_S512x43_d1 : Shape.Concatenates [S512x17, S512x12, S512x6, S512x8] S512x43 1
  pads_S512x43_S512x128_000_0850 : S512x43.Pads (![0, 0] : Fin 2 → Nat) ![0, 85] ![0, 0] S512x128
  h_S_ : 0 < S_.numel
  concatenates_S17_S12_S6_S8_S43_d0 : Shape.Concatenates [S17, S12, S6, S8] S43 0
  shapeCasts_S43_S1x43 : S43.ShapeCasts S1x43
  pads_S1x43_S1x128_000_0850 : S1x43.Pads (![0, 0] : Fin 2 → Nat) ![0, 85] ![0, 0] S1x128
  shapeCasts_S131072_S131072x1 : S131072.ShapeCasts S131072x1
  inb_S4096x512_S4096x512_0_0 : ∀ a, (![0, 0] : Fin 2 → Nat) a + S4096x512.size a ≤ S4096x512.size a
  h_S4096x512 : 0 < S4096x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  broadcasts_S4096x1_S4096x128 : S4096x1.Broadcasts S4096x128
  inb_S4096x128_S4096x128_0_0 : ∀ a, (![0, 0] : Fin 2 → Nat) a + S4096x128.size a ≤ S4096x128.size a
  h_S4096x128 : 0 < S4096x128.numel
  slices_S131072x128_S131072x43_0_0 : S131072x128.Slices ![0, 0] S131072x43
  dot_S4096x512_S512x128_S4096x128_1_0_0_1_n_n_wf : DotDims.WF S4096x512 S512x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S131072x512.size a
  hwx0_0 : ∀ i : grid0.Coords, EltTy.bits .f32 = 32 ∨ (Rect.block (s := S131072x512) S4096x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .i32 = 32 ∨ (Rect.block (s := S1x128) S1x128.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x1.size a ≤ S131072x1.size a
  hwx0_4 : ∀ i : grid0.Coords, EltTy.bits .i32 = 32 ∨ (Rect.block (s := S131072x1) S4096x1.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x128.size a ≤ S131072x128.size a
  hwx0_5 : ∀ i : grid0.Coords, EltTy.bits .f32 = 32 ∨ (Rect.block (s := S131072x128) S4096x128.size (cc0_transform_5 i) (hinb0_5 i)).WholeWords (EltTy.packing .f32)

variable [Facts₀]

def dot_S4096x512_S512x128_S4096x128_1_0_0_1_n_n : DotDims S4096x512 S512x128 S4096x128 where
  lhsContracting := [1]
  rhsContracting := [0]
  lhsNonContracting := [0]
  rhsNonContracting := [1]
  lhsBatch := []
  rhsBatch := []
  wf := dot_S4096x512_S512x128_S4096x128_1_0_0_1_n_n_wf

abbrev win0_0 : Pipeline.Window sig grid0 :=
  Pipeline.Window.ofSpec (Memref.whole main_arg0) S4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_c) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S4096x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6) S4096x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S131072x512 : Shape := ⟨2, ![131072, 512]⟩
abbrev S512x17 : Shape := ⟨2, ![512, 17]⟩
abbrev S17 : Shape := ⟨1, ![17]⟩
abbrev S512x12 : Shape := ⟨2, ![512, 12]⟩
abbrev S12 : Shape := ⟨1, ![12]⟩
abbrev S512x6 : Shape := ⟨2, ![512, 6]⟩
abbrev S6 : Shape := ⟨1, ![6]⟩
abbrev S512x8 : Shape := ⟨2, ![512, 8]⟩
abbrev S8 : Shape := ⟨1, ![8]⟩
abbrev S131072 : Shape := ⟨1, ![131072]⟩
abbrev S_ : Shape := ⟨0, ![]⟩
abbrev S131072x1 : Shape := ⟨2, ![131072, 1]⟩
abbrev S131072x17 : Shape := ⟨2, ![131072, 17]⟩
abbrev S1x17 : Shape := ⟨2, ![1, 17]⟩
abbrev S131072x12 : Shape := ⟨2, ![131072, 12]⟩
abbrev S1x12 : Shape := ⟨2, ![1, 12]⟩
abbrev S131072x6 : Shape := ⟨2, ![131072, 6]⟩
abbrev S1x6 : Shape := ⟨2, ![1, 6]⟩
abbrev S131072x8 : Shape := ⟨2, ![131072, 8]⟩
abbrev S1x8 : Shape := ⟨2, ![1, 8]⟩
abbrev S131072x43 : Shape := ⟨2, ![131072, 43]⟩

abbrev nBuf : Space → Nat
  | .hbm => 63
  | .vmem => 0
  | .smem => 0
  | _ => 0

abbrev bufTy : (tb : Table) → Fin (tcTables nBuf tb) → BufTy
  | .hbm, ⟨0, _⟩ => ⟨S131072x512, .f32⟩
  | .hbm, ⟨1, _⟩ => ⟨S512x17, .f32⟩
  | .hbm, ⟨2, _⟩ => ⟨S17, .f32⟩
  | .hbm, ⟨3, _⟩ => ⟨S512x12, .f32⟩
  | .hbm, ⟨4, _⟩ => ⟨S12, .f32⟩
  | .hbm, ⟨5, _⟩ => ⟨S512x6, .f32⟩
  | .hbm, ⟨6, _⟩ => ⟨S6, .f32⟩
  | .hbm, ⟨7, _⟩ => ⟨S512x8, .f32⟩
  | .hbm, ⟨8, _⟩ => ⟨S8, .f32⟩
  | .hbm, ⟨9, _⟩ => ⟨S131072, .i32⟩
  | .hbm, ⟨10, _⟩ => ⟨S_, .i32⟩
  | .hbm, ⟨11, _⟩ => ⟨S131072, .i32⟩
  | .hbm, ⟨12, _⟩ => ⟨S131072, .i1⟩
  | .hbm, ⟨13, _⟩ => ⟨S131072x1, .i1⟩
  | .hbm, ⟨14, _⟩ => ⟨S131072x17, .f32⟩
  | .hbm, ⟨15, _⟩ => ⟨S1x17, .f32⟩
  | .hbm, ⟨16, _⟩ => ⟨S131072x17, .f32⟩
  | .hbm, ⟨17, _⟩ => ⟨S131072x17, .f32⟩
  | .hbm, ⟨18, _⟩ => ⟨S_, .f32⟩
  | .hbm, ⟨19, _⟩ => ⟨S_, .f32⟩
  | .hbm, ⟨20, _⟩ => ⟨S131072x17, .i1⟩
  | .hbm, ⟨21, _⟩ => ⟨S131072x17, .f32⟩
  | .hbm, ⟨22, _⟩ => ⟨S131072x17, .f32⟩
  | .hbm, ⟨23, _⟩ => ⟨S_, .i32⟩
  | .hbm, ⟨24, _⟩ => ⟨S131072, .i32⟩
  | .hbm, ⟨25, _⟩ => ⟨S131072, .i1⟩
  | .hbm, ⟨26, _⟩ => ⟨S131072x1, .i1⟩
  | .hbm, ⟨27, _⟩ => ⟨S131072x12, .f32⟩
  | .hbm, ⟨28, _⟩ => ⟨S1x12, .f32⟩
  | .hbm, ⟨29, _⟩ => ⟨S131072x12, .f32⟩
  | .hbm, ⟨30, _⟩ => ⟨S131072x12, .f32⟩
  | .hbm, ⟨31, _⟩ => ⟨S_, .f32⟩
  | .hbm, ⟨32, _⟩ => ⟨S_, .f32⟩
  | .hbm, ⟨33, _⟩ => ⟨S131072x12, .i1⟩
  | .hbm, ⟨34, _⟩ => ⟨S131072x12, .f32⟩
  | .hbm, ⟨35, _⟩ => ⟨S131072x12, .f32⟩
  | .hbm, ⟨36, _⟩ => ⟨S_, .i32⟩
  | .hbm, ⟨37, _⟩ => ⟨S131072, .i32⟩
  | .hbm, ⟨38, _⟩ => ⟨S131072, .i1⟩
  | .hbm, ⟨39, _⟩ => ⟨S131072x1, .i1⟩
  | .hbm, ⟨40, _⟩ => ⟨S131072x6, .f32⟩
  | .hbm, ⟨41, _⟩ => ⟨S1x6, .f32⟩
  | .hbm, ⟨42, _⟩ => ⟨S131072x6, .f32⟩
  | .hbm, ⟨43, _⟩ => ⟨S131072x6, .f32⟩
  | .hbm, ⟨44, _⟩ => ⟨S_, .f32⟩
  | .hbm, ⟨45, _⟩ => ⟨S_, .f32⟩
  | .hbm, ⟨46, _⟩ => ⟨S131072x6, .i1⟩
  | .hbm, ⟨47, _⟩ => ⟨S131072x6, .f32⟩
  | .hbm, ⟨48, _⟩ => ⟨S131072x6, .f32⟩
  | .hbm, ⟨49, _⟩ => ⟨S_, .i32⟩
  | .hbm, ⟨50, _⟩ => ⟨S131072, .i32⟩
  | .hbm, ⟨51, _⟩ => ⟨S131072, .i1⟩
  | .hbm, ⟨52, _⟩ => ⟨S131072x1, .i1⟩
  | .hbm, ⟨53, _⟩ => ⟨S131072x8, .f32⟩
  | .hbm, ⟨54, _⟩ => ⟨S1x8, .f32⟩
  | .hbm, ⟨55, _⟩ => ⟨S131072x8, .f32⟩
  | .hbm, ⟨56, _⟩ => ⟨S131072x8, .f32⟩
  | .hbm, ⟨57, _⟩ => ⟨S_, .f32⟩
  | .hbm, ⟨58, _⟩ => ⟨S_, .f32⟩
  | .hbm, ⟨59, _⟩ => ⟨S131072x8, .i1⟩
  | .hbm, ⟨60, _⟩ => ⟨S131072x8, .f32⟩
  | .hbm, ⟨61, _⟩ => ⟨S131072x8, .f32⟩
  | .hbm, ⟨62, _⟩ => ⟨S131072x43, .f32⟩
  | _, _ => ⟨S131072x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v7 : Ref sig .tc := ⟨.hbm, 22, rfl⟩
abbrev main_c_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_1 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v15 : Ref sig .tc := ⟨.hbm, 35, rfl⟩
abbrev main_c_2 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_3 : Ref sig .tc := ⟨.hbm, 44, rfl⟩
abbrev main_call2_v0 : Ref sig .tc := ⟨.hbm, 45, rfl⟩
abbrev main_call2_v1 : Ref sig .tc := ⟨.hbm, 46, rfl⟩
abbrev main_call2_v2 : Ref sig .tc := ⟨.hbm, 47, rfl⟩
abbrev main_v23 : Ref sig .tc := ⟨.hbm, 48, rfl⟩
abbrev main_c_4 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_cst_5 : Ref sig .tc := ⟨.hbm, 57, rfl⟩
abbrev main_call3_v0 : Ref sig .tc := ⟨.hbm, 58, rfl⟩
abbrev main_call3_v1 : Ref sig .tc := ⟨.hbm, 59, rfl⟩
abbrev main_call3_v2 : Ref sig .tc := ⟨.hbm, 60, rfl⟩
abbrev main_v31 : Ref sig .tc := ⟨.hbm, 61, rfl⟩
abbrev main_v32 : Ref sig .tc := ⟨.hbm, 62, rfl⟩

abbrev nD : Nat := 1
abbrev τ : Topo := Topo.v7x

variable {F : FTy → Type} [FloatOps F]

class Facts₀ : Prop where
  bcast_S_S131072 : S_.BroadcastsInDim S131072 (![] : Fin 0 → Fin S131072.rank)
  bcast_S131072_S131072x1_0 : S131072.BroadcastsInDim S131072x1 (![0] : Fin 1 → Fin S131072x1.rank)
  bcast_S17_S1x17_1 : S17.BroadcastsInDim S1x17 (![1] : Fin 1 → Fin S1x17.rank)
  bcast_S1x17_S131072x17_0_1 : S1x17.BroadcastsInDim S131072x17 (![0, 1] : Fin 2 → Fin S131072x17.rank)
  bcast_S131072x1_S131072x17_0_1 : S131072x1.BroadcastsInDim S131072x17 (![0, 1] : Fin 2 → Fin S131072x17.rank)
  bcast_S_S131072x17 : S_.BroadcastsInDim S131072x17 (![] : Fin 0 → Fin S131072x17.rank)
  bcast_S12_S1x12_1 : S12.BroadcastsInDim S1x12 (![1] : Fin 1 → Fin S1x12.rank)
  bcast_S1x12_S131072x12_0_1 : S1x12.BroadcastsInDim S131072x12 (![0, 1] : Fin 2 → Fin S131072x12.rank)
  bcast_S131072x1_S131072x12_0_1 : S131072x1.BroadcastsInDim S131072x12 (![0, 1] : Fin 2 → Fin S131072x12.rank)
  bcast_S_S131072x12 : S_.BroadcastsInDim S131072x12 (![] : Fin 0 → Fin S131072x12.rank)
  bcast_S6_S1x6_1 : S6.BroadcastsInDim S1x6 (![1] : Fin 1 → Fin S1x6.rank)
  bcast_S1x6_S131072x6_0_1 : S1x6.BroadcastsInDim S131072x6 (![0, 1] : Fin 2 → Fin S131072x6.rank)
  bcast_S131072x1_S131072x6_0_1 : S131072x1.BroadcastsInDim S131072x6 (![0, 1] : Fin 2 → Fin S131072x6.rank)
  bcast_S_S131072x6 : S_.BroadcastsInDim S131072x6 (![] : Fin 0 → Fin S131072x6.rank)
  bcast_S8_S1x8_1 : S8.BroadcastsInDim S1x8 (![1] : Fin 1 → Fin S1x8.rank)
  bcast_S1x8_S131072x8_0_1 : S1x8.BroadcastsInDim S131072x8 (![0, 1] : Fin 2 → Fin S131072x8.rank)
  bcast_S131072x1_S131072x8_0_1 : S131072x1.BroadcastsInDim S131072x8 (![0, 1] : Fin 2 → Fin S131072x8.rank)
  bcast_S_S131072x8 : S_.BroadcastsInDim S131072x8 (![] : Fin 0 → Fin S131072x8.rank)
  concatenates_S131072x17_S131072x12_S131072x6_S131072x8_S131072x43_d1 : Shape.Concatenates [S131072x17, S131072x12, S131072x6, S131072x8] S131072x43 1
  dot_S131072x512_S512x17_S131072x17_1_0_0_1_n_n_wf : DotDims.WF S131072x512 S512x17 S131072x17 [1] [0] [0] [1] [] []
  dot_S131072x512_S512x12_S131072x12_1_0_0_1_n_n_wf : DotDims.WF S131072x512 S512x12 S131072x12 [1] [0] [0] [1] [] []
  dot_S131072x512_S512x6_S131072x6_1_0_0_1_n_n_wf : DotDims.WF S131072x512 S512x6 S131072x6 [1] [0] [0] [1] [] []
  dot_S131072x512_S512x8_S131072x8_1_0_0_1_n_n_wf : DotDims.WF S131072x512 S512x8 S131072x8 [1] [0] [0] [1] [] []

variable [Facts₀]

def dot_S131072x512_S512x17_S131072x17_1_0_0_1_n_n : DotDims S131072x512 S512x17 S131072x17 where
  lhsContracting := [1]
  rhsContracting := [0]
  lhsNonContracting := [0]
  rhsNonContracting := [1]
  lhsBatch := []
  rhsBatch := []
  wf := dot_S131072x512_S512x17_S131072x17_1_0_0_1_n_n_wf
def dot_S131072x512_S512x12_S131072x12_1_0_0_1_n_n : DotDims S131072x512 S512x12 S131072x12 where
  lhsContracting := [1]
  rhsContracting := [0]
  lhsNonContracting := [0]
  rhsNonContracting := [1]
  lhsBatch := []
  rhsBatch := []
  wf := dot_S131072x512_S512x12_S131072x12_1_0_0_1_n_n_wf
def dot_S131072x512_S512x6_S131072x6_1_0_0_1_n_n : DotDims S131072x512 S512x6 S131072x6 where
  lhsContracting := [1]
  rhsContracting := [0]
  lhsNonContracting := [0]
  rhsNonContracting := [1]
  lhsBatch := []
  rhsBatch := []
  wf := dot_S131072x512_S512x6_S131072x6_1_0_0_1_n_n_wf
def dot_S131072x512_S512x8_S131072x8_1_0_0_1_n_n : DotDims S131072x512 S512x8 S131072x8 where
  lhsContracting := [1]
  rhsContracting := [0]
  lhsNonContracting := [0]
  rhsNonContracting := [1]
  lhsBatch := []
  rhsBatch := []
  wf := dot_S131072x512_S512x8_S131072x8_1_0_0_1_n_n_wf

class Facts : Prop extends Facts₀ where

variable [Facts]
-- ==== Proof.KernelFrame.lean ====
/-
  The frame of the masked-classifier kernel program: its @main is eleven host operations (two concatenations of the
  four heads' weights and biases, each padded with zeros to 128 columns, a class-id table and a reshape of the mask),
  one pipelined region over 32 row tiles of 4096 rows, and a final slice to the 43 real columns.

  What is proved here, for any float family: every weakly fair execution of @main terminates without a fault; the ten
  argument arrays end as launched; the region's output array ends at what the pipeline's write-backs leave, namely per
  row tile the body's one store, and the slice's buffer at the host tail applied to it.

  The body at a grid point loads the x tile, the padded weight matrix, the padded bias row, the class-id row and the
  mask tile, and stores ONE value covering the whole output tile (it also loads the output tile first and ignores
  what it read), so the output tile after the body is the canonical array of that single store.
-/
import proofs.«178423_j18090402250892_1_alg».proof.Proof.Gen.Kernel.Launch
import proofs.«178423_j18090402250892_1_alg».proof.Proof.Gen.Kernel.Skeleton
import proofs.«178423_j18090402250892_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- membership in a rectangle of extent 4096 recurses once per coordinate of the long axis
set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The five stretches of host operations before the region, in program order. -/
abbrev prefixOps : List (List (HloOp τ sig (Elt F))) := [hostOps0, hostOps0_1, hostOps0_2, hostOps0_3, hostOps0_4]

/-- Core `c`'s buffer contents when the region is entered: the launch memory after the host operations before it. -/
abbrev V0 (c : Dev nD) : Valuation τ sig (Elt F) := StableHlo.after (List.flatten prefixOps) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, and the slice after it: it reduces to the region
    continued by the slice. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main prefixOps [hostOps1]
    (by simp only [prefixOps, List.Forall]; exact ⟨hostOps0_sub, hostOps0_1_sub, hostOps0_2_sub, hostOps0_3_sub, hostOps0_4_sub⟩)
    (by simp only [prefixOps, List.Forall]; exact ⟨hostOps0_fresh, hostOps0_1_fresh, hostOps0_2_fresh, hostOps0_3_fresh, hostOps0_4_fresh⟩) main_chain

/-- The slice touches the pipeline's arrays and the bypassing buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes only its own result buffer, which is no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.unary_writes, Finset.mem_singleton] <;> exact StableHlo.devRef_ne_of_ne (by decide)

/-- The ten argument arrays of @main. -/
abbrev argRefs : List (Ref sig .tc) :=
  [main_arg0, main_arg1, main_arg2, main_arg3, main_arg4, main_arg5, main_arg6, main_arg7, main_arg8, main_arg9]

/-- No host operation before the region writes an argument array (each writes its own result buffer only): the region
    finds every argument as launched. -/
theorem V_arg (c : Dev nD) (b : Ref sig .tc) (hb : b ∈ argRefs) : V m c b = m ((c : Thread nD τ).loc b) := by
  simp only [argRefs, List.mem_cons, List.mem_nil_iff, or_false] at hb
  rcases hb with rfl | rfl | rfl | rfl | rfl | rfl | rfl | rfl | rfl | rfl
  all_goals
    exact StableHlo.after_of_forall_not_mem (b := Proc.devRef .tc _) _ _ (List.forall_iff_forall_mem.mp (by
      simp only [prefixOps, hostOps0, hostOps0_1, hostOps0_2, hostOps0_3, hostOps0_4, List.flatten_cons, List.flatten_nil, List.append_nil,
        List.cons_append, List.nil_append, List.Forall, StableHlo.nullary_writes, StableHlo.unary_writes, StableHlo.binary_writes,
        StableHlo.nary_writes, StableHlo.reshape_writes, Finset.mem_singleton]
      repeat' apply And.intro
      all_goals exact StableHlo.devRef_ne_of_ne (by decide)))

/-- The nine argument arrays no window stages. -/
abbrev bypassArgs : List (Ref sig .tc) :=
  [main_arg1, main_arg2, main_arg3, main_arg4, main_arg5, main_arg6, main_arg7, main_arg8, main_arg9]

/-- Nor does the slice after the region write one of them, and none is an array the pipeline writes back: each ends as
    launched. -/
theorem W_arg (dats : (p : Fin _) → (c : Dev nD) → Dat τ (Elt F) Unit ℕ (UR sig nD τ) ℕ (cfgs p) c) (c : Dev nD)
    (b : Ref sig .tc) (hb : b ∈ bypassArgs) :
    Pipeline.afterTail₀ cfgs dats 0 (V0 m) [hostOps1] c b = m ((c : Thread nD τ).loc b) := by
  have hV := V_arg m c b (by
    simp only [bypassArgs, List.mem_cons, List.mem_nil_iff, or_false] at hb
    simp only [argRefs, List.mem_cons, List.mem_nil_iff, or_false]
    exact Or.inr hb)
  simp only [bypassArgs, List.mem_cons, List.mem_nil_iff, or_false] at hb
  have hw : ∀ w, Pipeline.arrRef spec0 w ≠ b := by
    rcases hb with rfl | rfl | rfl | rfl | rfl | rfl | rfl | rfl | rfl <;> decide
  have hs : (Proc.devRef .tc b : DevRef τ sig) ≠ Proc.devRef .tc main_v7 := by
    rcases hb with rfl | rfl | rfl | rfl | rfl | rfl | rfl | rfl | rfl <;> exact StableHlo.devRef_ne_of_ne (by decide)
  unfold Pipeline.afterTail₀
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.unary_writes, Finset.mem_singleton]
      exact hs)),
    Pipeline.withArrays_of_ne _ c (V0 m c) _ b hw]
  exact hV

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (a window not
    fetched at a point has not moved its block index), for any proof data whose array is the region-entry contents and
    whose body leaves the block in place. Stated once per input window: x tile, weights, bias, class ids, mask tile. -/
theorem before_x {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_w {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_b {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_cls {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_mask {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's accesses and what it leaves in the output tile -/

abbrev rX : Rect S4096x512 := Rect.unit (s := S4096x512) ![0, 0] S4096x512.size inb_S4096x512_S4096x512_0_0
abbrev rW : Rect S512x128 := Rect.unit (s := S512x128) ![0, 0] S512x128.size inb_S512x128_S512x128_0_0
abbrev rRow : Rect S1x128 := Rect.unit (s := S1x128) ![0, 0] S1x128.size inb_S1x128_S1x128_0_0
abbrev rMask : Rect S4096x1 := Rect.unit (s := S4096x1) ![0, 0] S4096x1.size inb_S4096x1_S4096x1_0_0
abbrev rOut : Rect S4096x128 := Rect.unit (s := S4096x128) ![0, 0] S4096x128.size inb_S4096x128_S4096x128_0_0

/-- The output tile after the body, from the five input blocks: the body's one store, which covers the tile, of the
    payload (the masked scores) over the loaded blocks. -/
def outTile (x : Vec F S4096x512 .f32) (w : Vec F S512x128 .f32) (b : Vec F S1x128 .f32) (cls : Vec F S1x128 .i32)
    (mk : Vec F S4096x1 .i32) : Vec F S4096x128 .f32 :=
  View.canon [⟨rOut, k0_pay1 (View.ld x rX) (View.ld w rW) (View.ld b rRow) (View.ld mk rMask) (View.ld cls rRow)⟩]

/-- The one store covers the tile. -/
theorem cover_out (p0 : Vec F S4096x128 .f32) (y : S4096x128.Idx) :
    ∃ pc ∈ ([⟨rOut, p0⟩] : List (View.Piece (Elt F) S4096x128 .f32)), y ∈ pc.1.set :=
  View.cover_of_tiled [⟨rOut, p0⟩] S4096x128.size (by rfl) y

/-! ## The body's triple -/

set_option maxHeartbeats 1000000 in
/-- The kernel body on whole staging memrefs, the inputs' at contents `x0 … x4` and the output's at anything, runs to
    the continuation holding the inputs' as they were and the output's at `outTile` of them. -/
theorem sound_kernel (c : Dev nD) (E : Set ℕ) (i : grid0.Coords)
    (arg1 : Memref sig .tc .vmem S4096x512 .f32) (harg1 : arg1.IsWhole) (arg2 : Memref sig .tc .vmem S512x128 .f32) (harg2 : arg2.IsWhole)
    (arg3 : Memref sig .tc .vmem S1x128 .f32) (harg3 : arg3.IsWhole) (arg4 : Memref sig .tc .vmem S1x128 .i32) (harg4 : arg4.IsWhole)
    (arg5 : Memref sig .tc .vmem S4096x1 .i32) (harg5 : arg5.IsWhole) (arg6 : Memref sig .tc .vmem S4096x128 .f32) (harg6 : arg6.IsWhole)
    (x0 : Vec F S4096x512 .f32) (x1 : Vec F S512x128 .f32) (x2 : Vec F S1x128 .f32) (x3 : Vec F S1x128 .i32) (x4 : Vec F S4096x1 .i32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outTile x0 x1 x2 x3 x4)) -∗ K ⟨⟩))
      ⊢ wp frame (wpE (defs₀ (F := F)) Variants.none c none) E (cc0__kernel i arg1 harg1 arg2 harg2 arg3 harg3 arg4 harg4 arg5 harg5 arg6 harg6) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover_out _)

/-! ## The pipeline's proof data -/

/-- The proof data of the pipeline on core `c`: the arrays as the region finds them; after the body at point `t` each
    input's buffer at its block and the output's at `outTile` of the input blocks; the invariant the scoped rest and
    the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outTile (iblk m c 0 t) (iblk m c 1 t) (iblk m c 2 t) (iblk m c 3 t) (iblk m c 4 t)
  Φ _ := Pipeline.ΦA spec0 c
  q _ := fullShare
  owed _ := 0

/-- The proof data's arrays are the region-entry contents (the definition projected, the host prefix never unfolded). -/
theorem A_eq (c : Dev nD) (w : Fin cfg0.W) : (dats m 0 c).A w = V m c (Pipeline.arrRef spec0 w) := by
  dsimp only [dats]

theorem after_x (c : Dev nD) (t : Fin cfg0.N) : (dats m 0 c).after 0 t = iblk m c 0 t := by dsimp only [dats]
theorem after_w (c : Dev nD) (t : Fin cfg0.N) : (dats m 0 c).after 1 t = iblk m c 1 t := by dsimp only [dats]
theorem after_b (c : Dev nD) (t : Fin cfg0.N) : (dats m 0 c).after 2 t = iblk m c 2 t := by dsimp only [dats]
theorem after_cls (c : Dev nD) (t : Fin cfg0.N) : (dats m 0 c).after 3 t = iblk m c 3 t := by dsimp only [dats]
theorem after_mask (c : Dev nD) (t : Fin cfg0.N) : (dats m 0 c).after 4 t = iblk m c 4 t := by dsimp only [dats]
theorem after_out (c : Dev nD) (t : Fin cfg0.N) :
    (dats m 0 c).after 5 t = outTile (iblk m c 0 t) (iblk m c 1 t) (iblk m c 2 t) (iblk m c 3 t) (iblk m c 4 t) := by dsimp only [dats]

theorem dbefore_x (c : Dev nD) (t : Fin cfg0.N) (d) : (dats m 0 c).before 0 t d = iblk m c 0 t :=
  before_x m (dats m 0 c) (A_eq m c 0) (after_x m c) t d
theorem dbefore_w (c : Dev nD) (t : Fin cfg0.N) (d) : (dats m 0 c).before 1 t d = iblk m c 1 t :=
  before_w m (dats m 0 c) (A_eq m c 1) (after_w m c) t d
theorem dbefore_b (c : Dev nD) (t : Fin cfg0.N) (d) : (dats m 0 c).before 2 t d = iblk m c 2 t :=
  before_b m (dats m 0 c) (A_eq m c 2) (after_b m c) t d
theorem dbefore_cls (c : Dev nD) (t : Fin cfg0.N) (d) : (dats m 0 c).before 3 t d = iblk m c 3 t :=
  before_cls m (dats m 0 c) (A_eq m c 3) (after_cls m c) t d
theorem dbefore_mask (c : Dev nD) (t : Fin cfg0.N) (d) : (dats m 0 c).before 4 t d = iblk m c 4 t :=
  before_mask m (dats m 0 c) (A_eq m c 4) (after_mask m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' memrefs hold their blocks, so the body's triple applies; the invariant and the
    core's owed counters pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [dbefore_x, dbefore_w, dbefore_b, dbefore_cls, dbefore_mask]
  rw [show (dats m 0 c).Φ t.succ = (dats m 0 c).Φ t.castSucc from rfl,
    show (dats m 0 c).owesAt () t.succ = (dats m 0 c).owesAt () t.castSucc from rfl,
    after_x, after_w, after_b, after_cls, after_mask, after_out]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run -/

/-- What the buffers hold after the slice: the region-entry contents with the pipeline's arrays at their final
    contents, then the slice applied. -/
abbrev finalV (c : Dev nD) (b : Ref sig .tc) : Buf (Elt F) ((c : Thread nD τ).loc b) :=
  Pipeline.afterTail₀ cfgs (dats m) 0 (V0 m) [hostOps1] c b

set_option backward.isDefEq.respectTransparency.types false in
/-- From any memory with zero counters every weakly fair execution of @main on the TensorCores terminates, and every
    final state has every array of the pipeline at what the write-backs leave and every other unscoped buffer as the
    slice after the region leaves it. -/
theorem run_main : θ_run defs (onTc (τ := τ) (main (F := F))) (s₀ m ρ) (Pipeline.FramePost cfgs (dats m) 0 (finalV m)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The same run read at the argument arrays and at the program's result: the x array (window 0's, an input) ends at
    its region-entry contents, which are the launch contents; the nine others bypass the region and the slice; the
    result buffer holds what the slice leaves. -/
theorem run_read : θ_run defs (onTc (τ := τ) (main (F := F))) ⟨m, fun _ => 0, ρ⟩ (fun r => ∀ c : Dev nD,
      r.2.mem ((c.tc : Thread nD τ).loc main_v7) = finalV m c main_v7
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨(h c).2 main_v7 (Pipeline.mem_restRefs_of main_v7 (by decide) (by decide)),
     ((h c).1 0).trans (((dats m 0 c).arrAt_in 0 rfl _).trans ((A_eq m c 0).trans (V_arg m c main_arg0 (by simp [argRefs])))),
     ((h c).2 main_arg1 (Pipeline.mem_restRefs_of main_arg1 (by decide) (by decide))).trans (W_arg m (dats m) c main_arg1 (by simp [bypassArgs])),
     ((h c).2 main_arg2 (Pipeline.mem_restRefs_of main_arg2 (by decide) (by decide))).trans (W_arg m (dats m) c main_arg2 (by simp [bypassArgs])),
     ((h c).2 main_arg3 (Pipeline.mem_restRefs_of main_arg3 (by decide) (by decide))).trans (W_arg m (dats m) c main_arg3 (by simp [bypassArgs])),
     ((h c).2 main_arg4 (Pipeline.mem_restRefs_of main_arg4 (by decide) (by decide))).trans (W_arg m (dats m) c main_arg4 (by simp [bypassArgs])),
     ((h c).2 main_arg5 (Pipeline.mem_restRefs_of main_arg5 (by decide) (by decide))).trans (W_arg m (dats m) c main_arg5 (by simp [bypassArgs])),
     ((h c).2 main_arg6 (Pipeline.mem_restRefs_of main_arg6 (by decide) (by decide))).trans (W_arg m (dats m) c main_arg6 (by simp [bypassArgs])),
     ((h c).2 main_arg7 (Pipeline.mem_restRefs_of main_arg7 (by decide) (by decide))).trans (W_arg m (dats m) c main_arg7 (by simp [bypassArgs])),
     ((h c).2 main_arg8 (Pipeline.mem_restRefs_of main_arg8 (by decide) (by decide))).trans (W_arg m (dats m) c main_arg8 (by simp [bypassArgs])),
     ((h c).2 main_arg9 (Pipeline.mem_restRefs_of main_arg9 (by decide) (by decide))).trans (W_arg m (dats m) c main_arg9 (by simp [bypassArgs]))⟩)
    (run_main m ρ)

end Cert.Kernel.Frame

end
-- ==== Proof.KernelIdealFrame.lean ====
/-
  The frame of the masked-classifier kernel program: its @main is eleven host operations (two concatenations of the
  four heads' weights and biases, each padded with zeros to 128 columns, a class-id table and a reshape of the mask),
  one pipelined region over 32 row tiles of 4096 rows, and a final slice to the 43 real columns.

  What is proved here, for any float family: every weakly fair execution of @main terminates without a fault; the ten
  argument arrays end as launched; the region's output array ends at what the pipeline's write-backs leave, namely per
  row tile the body's one store, and the slice's buffer at the host tail applied to it.

  The body at a grid point loads the x tile, the padded weight matrix, the padded bias row, the class-id row and the
  mask tile, and stores ONE value covering the whole output tile (it also loads the output tile first and ignores
  what it read), so the output tile after the body is the canonical array of that single store.
-/
import proofs.«178423_j18090402250892_1_alg».proof.Proof.Gen.KernelIdeal.Launch
import proofs.«178423_j18090402250892_1_alg».proof.Proof.Gen.KernelIdeal.Skeleton
import proofs.«178423_j18090402250892_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership in a rectangle of extent 4096 recurses once per coordinate of the long axis
set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The five stretches of host operations before the region, in program order. -/
abbrev prefixOps : List (List (HloOp τ sig (Elt F))) := [hostOps0, hostOps0_1, hostOps0_2, hostOps0_3, hostOps0_4]

/-- Core `c`'s buffer contents when the region is entered: the launch memory after the host operations before it. -/
abbrev V0 (c : Dev nD) : Valuation τ sig (Elt F) := StableHlo.after (List.flatten prefixOps) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, and the slice after it: it reduces to the region
    continued by the slice. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main prefixOps [hostOps1]
    (by simp only [prefixOps, List.Forall]; exact ⟨hostOps0_sub, hostOps0_1_sub, hostOps0_2_sub, hostOps0_3_sub, hostOps0_4_sub⟩)
    (by simp only [prefixOps, List.Forall]; exact ⟨hostOps0_fresh, hostOps0_1_fresh, hostOps0_2_fresh, hostOps0_3_fresh, hostOps0_4_fresh⟩) main_chain

/-- The slice touches the pipeline's arrays and the bypassing buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes only its own result buffer, which is no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.unary_writes, Finset.mem_singleton] <;> exact StableHlo.devRef_ne_of_ne (by decide)

/-- The ten argument arrays of @main. -/
abbrev argRefs : List (Ref sig .tc) :=
  [main_arg0, main_arg1, main_arg2, main_arg3, main_arg4, main_arg5, main_arg6, main_arg7, main_arg8, main_arg9]

/-- No host operation before the region writes an argument array (each writes its own result buffer only): the region
    finds every argument as launched. -/
theorem V_arg (c : Dev nD) (b : Ref sig .tc) (hb : b ∈ argRefs) : V m c b = m ((c : Thread nD τ).loc b) := by
  simp only [argRefs, List.mem_cons, List.mem_nil_iff, or_false] at hb
  rcases hb with rfl | rfl | rfl | rfl | rfl | rfl | rfl | rfl | rfl | rfl
  all_goals
    exact StableHlo.after_of_forall_not_mem (b := Proc.devRef .tc _) _ _ (List.forall_iff_forall_mem.mp (by
      simp only [prefixOps, hostOps0, hostOps0_1, hostOps0_2, hostOps0_3, hostOps0_4, List.flatten_cons, List.flatten_nil, List.append_nil,
        List.cons_append, List.nil_append, List.Forall, StableHlo.nullary_writes, StableHlo.unary_writes, StableHlo.binary_writes,
        StableHlo.nary_writes, StableHlo.reshape_writes, Finset.mem_singleton]
      repeat' apply And.intro
      all_goals exact StableHlo.devRef_ne_of_ne (by decide)))

/-- The nine argument arrays no window stages. -/
abbrev bypassArgs : List (Ref sig .tc) :=
  [main_arg1, main_arg2, main_arg3, main_arg4, main_arg5, main_arg6, main_arg7, main_arg8, main_arg9]

/-- Nor does the slice after the region write one of them, and none is an array the pipeline writes back: each ends as
    launched. -/
theorem W_arg (dats : (p : Fin _) → (c : Dev nD) → Dat τ (Elt F) Unit ℕ (UR sig nD τ) ℕ (cfgs p) c) (c : Dev nD)
    (b : Ref sig .tc) (hb : b ∈ bypassArgs) :
    Pipeline.afterTail₀ cfgs dats 0 (V0 m) [hostOps1] c b = m ((c : Thread nD τ).loc b) := by
  have hV := V_arg m c b (by
    simp only [bypassArgs, List.mem_cons, List.mem_nil_iff, or_false] at hb
    simp only [argRefs, List.mem_cons, List.mem_nil_iff, or_false]
    exact Or.inr hb)
  simp only [bypassArgs, List.mem_cons, List.mem_nil_iff, or_false] at hb
  have hw : ∀ w, Pipeline.arrRef spec0 w ≠ b := by
    rcases hb with rfl | rfl | rfl | rfl | rfl | rfl | rfl | rfl | rfl <;> decide
  have hs : (Proc.devRef .tc b : DevRef τ sig) ≠ Proc.devRef .tc main_v7 := by
    rcases hb with rfl | rfl | rfl | rfl | rfl | rfl | rfl | rfl | rfl <;> exact StableHlo.devRef_ne_of_ne (by decide)
  unfold Pipeline.afterTail₀
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.unary_writes, Finset.mem_singleton]
      exact hs)),
    Pipeline.withArrays_of_ne _ c (V0 m c) _ b hw]
  exact hV

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (a window not
    fetched at a point has not moved its block index), for any proof data whose array is the region-entry contents and
    whose body leaves the block in place. Stated once per input window: x tile, weights, bias, class ids, mask tile. -/
theorem before_x {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_w {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_b {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_cls {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_mask {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's accesses and what it leaves in the output tile -/

abbrev rX : Rect S4096x512 := Rect.unit (s := S4096x512) ![0, 0] S4096x512.size inb_S4096x512_S4096x512_0_0
abbrev rW : Rect S512x128 := Rect.unit (s := S512x128) ![0, 0] S512x128.size inb_S512x128_S512x128_0_0
abbrev rRow : Rect S1x128 := Rect.unit (s := S1x128) ![0, 0] S1x128.size inb_S1x128_S1x128_0_0
abbrev rMask : Rect S4096x1 := Rect.unit (s := S4096x1) ![0, 0] S4096x1.size inb_S4096x1_S4096x1_0_0
abbrev rOut : Rect S4096x128 := Rect.unit (s := S4096x128) ![0, 0] S4096x128.size inb_S4096x128_S4096x128_0_0

/-- The output tile after the body, from the five input blocks: the body's one store, which covers the tile, of the
    payload (the masked scores) over the loaded blocks. -/
def outTile (x : Vec F S4096x512 .f32) (w : Vec F S512x128 .f32) (b : Vec F S1x128 .f32) (cls : Vec F S1x128 .i32)
    (mk : Vec F S4096x1 .i32) : Vec F S4096x128 .f32 :=
  View.canon [⟨rOut, k0_pay1 (View.ld x rX) (View.ld w rW) (View.ld b rRow) (View.ld mk rMask) (View.ld cls rRow)⟩]

/-- The one store covers the tile. -/
theorem cover_out (p0 : Vec F S4096x128 .f32) (y : S4096x128.Idx) :
    ∃ pc ∈ ([⟨rOut, p0⟩] : List (View.Piece (Elt F) S4096x128 .f32)), y ∈ pc.1.set :=
  View.cover_of_tiled [⟨rOut, p0⟩] S4096x128.size (by rfl) y

/-! ## The body's triple -/

set_option maxHeartbeats 1000000 in
/-- The kernel body on whole staging memrefs, the inputs' at contents `x0 … x4` and the output's at anything, runs to
    the continuation holding the inputs' as they were and the output's at `outTile` of them. -/
theorem sound_kernel (c : Dev nD) (E : Set ℕ) (i : grid0.Coords)
    (arg1 : Memref sig .tc .vmem S4096x512 .f32) (harg1 : arg1.IsWhole) (arg2 : Memref sig .tc .vmem S512x128 .f32) (harg2 : arg2.IsWhole)
    (arg3 : Memref sig .tc .vmem S1x128 .f32) (harg3 : arg3.IsWhole) (arg4 : Memref sig .tc .vmem S1x128 .i32) (harg4 : arg4.IsWhole)
    (arg5 : Memref sig .tc .vmem S4096x1 .i32) (harg5 : arg5.IsWhole) (arg6 : Memref sig .tc .vmem S4096x128 .f32) (harg6 : arg6.IsWhole)
    (x0 : Vec F S4096x512 .f32) (x1 : Vec F S512x128 .f32) (x2 : Vec F S1x128 .f32) (x3 : Vec F S1x128 .i32) (x4 : Vec F S4096x1 .i32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outTile x0 x1 x2 x3 x4)) -∗ K ⟨⟩))
      ⊢ wp frame (wpE (defs₀ (F := F)) Variants.none c none) E (cc0__kernel i arg1 harg1 arg2 harg2 arg3 harg3 arg4 harg4 arg5 harg5 arg6 harg6) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover_out _)

/-! ## The pipeline's proof data -/

/-- The proof data of the pipeline on core `c`: the arrays as the region finds them; after the body at point `t` each
    input's buffer at its block and the output's at `outTile` of the input blocks; the invariant the scoped rest and
    the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outTile (iblk m c 0 t) (iblk m c 1 t) (iblk m c 2 t) (iblk m c 3 t) (iblk m c 4 t)
  Φ _ := Pipeline.ΦA spec0 c
  q _ := fullShare
  owed _ := 0

/-- The proof data's arrays are the region-entry contents (the definition projected, the host prefix never unfolded). -/
theorem A_eq (c : Dev nD) (w : Fin cfg0.W) : (dats m 0 c).A w = V m c (Pipeline.arrRef spec0 w) := by
  dsimp only [dats]

theorem after_x (c : Dev nD) (t : Fin cfg0.N) : (dats m 0 c).after 0 t = iblk m c 0 t := by dsimp only [dats]
theorem after_w (c : Dev nD) (t : Fin cfg0.N) : (dats m 0 c).after 1 t = iblk m c 1 t := by dsimp only [dats]
theorem after_b (c : Dev nD) (t : Fin cfg0.N) : (dats m 0 c).after 2 t = iblk m c 2 t := by dsimp only [dats]
theorem after_cls (c : Dev nD) (t : Fin cfg0.N) : (dats m 0 c).after 3 t = iblk m c 3 t := by dsimp only [dats]
theorem after_mask (c : Dev nD) (t : Fin cfg0.N) : (dats m 0 c).after 4 t = iblk m c 4 t := by dsimp only [dats]
theorem after_out (c : Dev nD) (t : Fin cfg0.N) :
    (dats m 0 c).after 5 t = outTile (iblk m c 0 t) (iblk m c 1 t) (iblk m c 2 t) (iblk m c 3 t) (iblk m c 4 t) := by dsimp only [dats]

theorem dbefore_x (c : Dev nD) (t : Fin cfg0.N) (d) : (dats m 0 c).before 0 t d = iblk m c 0 t :=
  before_x m (dats m 0 c) (A_eq m c 0) (after_x m c) t d
theorem dbefore_w (c : Dev nD) (t : Fin cfg0.N) (d) : (dats m 0 c).before 1 t d = iblk m c 1 t :=
  before_w m (dats m 0 c) (A_eq m c 1) (after_w m c) t d
theorem dbefore_b (c : Dev nD) (t : Fin cfg0.N) (d) : (dats m 0 c).before 2 t d = iblk m c 2 t :=
  before_b m (dats m 0 c) (A_eq m c 2) (after_b m c) t d
theorem dbefore_cls (c : Dev nD) (t : Fin cfg0.N) (d) : (dats m 0 c).before 3 t d = iblk m c 3 t :=
  before_cls m (dats m 0 c) (A_eq m c 3) (after_cls m c) t d
theorem dbefore_mask (c : Dev nD) (t : Fin cfg0.N) (d) : (dats m 0 c).before 4 t d = iblk m c 4 t :=
  before_mask m (dats m 0 c) (A_eq m c 4) (after_mask m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' memrefs hold their blocks, so the body's triple applies; the invariant and the
    core's owed counters pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [dbefore_x, dbefore_w, dbefore_b, dbefore_cls, dbefore_mask]
  rw [show (dats m 0 c).Φ t.succ = (dats m 0 c).Φ t.castSucc from rfl,
    show (dats m 0 c).owesAt () t.succ = (dats m 0 c).owesAt () t.castSucc from rfl,
    after_x, after_w, after_b, after_cls, after_mask, after_out]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run -/

/-- What the buffers hold after the slice: the region-entry contents with the pipeline's arrays at their final
    contents, then the slice applied. -/
abbrev finalV (c : Dev nD) (b : Ref sig .tc) : Buf (Elt F) ((c : Thread nD τ).loc b) :=
  Pipeline.afterTail₀ cfgs (dats m) 0 (V0 m) [hostOps1] c b

set_option backward.isDefEq.respectTransparency.types false in
/-- From any memory with zero counters every weakly fair execution of @main on the TensorCores terminates, and every
    final state has every array of the pipeline at what the write-backs leave and every other unscoped buffer as the
    slice after the region leaves it. -/
theorem run_main : θ_run defs (onTc (τ := τ) (main (F := F))) (s₀ m ρ) (Pipeline.FramePost cfgs (dats m) 0 (finalV m)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The same run read at the argument arrays and at the program's result: the x array (window 0's, an input) ends at
    its region-entry contents, which are the launch contents; the nine others bypass the region and the slice; the
    result buffer holds what the slice leaves. -/
theorem run_read : θ_run defs (onTc (τ := τ) (main (F := F))) ⟨m, fun _ => 0, ρ⟩ (fun r => ∀ c : Dev nD,
      r.2.mem ((c.tc : Thread nD τ).loc main_v7) = finalV m c main_v7
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨(h c).2 main_v7 (Pipeline.mem_restRefs_of main_v7 (by decide) (by decide)),
     ((h c).1 0).trans (((dats m 0 c).arrAt_in 0 rfl _).trans ((A_eq m c 0).trans (V_arg m c main_arg0 (by simp [argRefs])))),
     ((h c).2 main_arg1 (Pipeline.mem_restRefs_of main_arg1 (by decide) (by decide))).trans (W_arg m (dats m) c main_arg1 (by simp [bypassArgs])),
     ((h c).2 main_arg2 (Pipeline.mem_restRefs_of main_arg2 (by decide) (by decide))).trans (W_arg m (dats m) c main_arg2 (by simp [bypassArgs])),
     ((h c).2 main_arg3 (Pipeline.mem_restRefs_of main_arg3 (by decide) (by decide))).trans (W_arg m (dats m) c main_arg3 (by simp [bypassArgs])),
     ((h c).2 main_arg4 (Pipeline.mem_restRefs_of main_arg4 (by decide) (by decide))).trans (W_arg m (dats m) c main_arg4 (by simp [bypassArgs])),
     ((h c).2 main_arg5 (Pipeline.mem_restRefs_of main_arg5 (by decide) (by decide))).trans (W_arg m (dats m) c main_arg5 (by simp [bypassArgs])),
     ((h c).2 main_arg6 (Pipeline.mem_restRefs_of main_arg6 (by decide) (by decide))).trans (W_arg m (dats m) c main_arg6 (by simp [bypassArgs])),
     ((h c).2 main_arg7 (Pipeline.mem_restRefs_of main_arg7 (by decide) (by decide))).trans (W_arg m (dats m) c main_arg7 (by simp [bypassArgs])),
     ((h c).2 main_arg8 (Pipeline.mem_restRefs_of main_arg8 (by decide) (by decide))).trans (W_arg m (dats m) c main_arg8 (by simp [bypassArgs])),
     ((h c).2 main_arg9 (Pipeline.mem_restRefs_of main_arg9 (by decide) (by decide))).trans (W_arg m (dats m) c main_arg9 (by simp [bypassArgs]))⟩)
    (run_main m ρ)

end Cert.KernelIdeal.Frame

end
-- ==== Proof.Spec.lean ====
/-
  The specification both programs meet, over the extended reals.

  Four linear heads of 17, 12, 6 and 8 classes share one input row x(r, ·) of 512 features. Head h owns a block of
  columns of the 43-column result: column j belongs to head 0 for j < 17, head 1 for 17 ≤ j < 29, head 2 for
  29 ≤ j < 35 and head 3 for 35 ≤ j < 43. Row r carries a routing word mask(r); the entry (r, j) is the head's score
      ∑ₖ x(r, k) · W(k, j) + b(j)
  when mask(r) is the number of the head owning column j, and zero otherwise, where W and b are the four heads'
  weight matrices and bias vectors laid side by side along the class axis.
-/
import Idealize.ShloMosaic.PureOps.Ideal
import Idealize.ShloMosaic.Lib.ValueIdx
import Idealize.ShloMosaic.Lib.Pipeline.Value

noncomputable section

open scoped BigOperators

namespace Cert.MaskedHeads

open Idealize.ShloMosaic Idealize.ShloMosaic.ValueIdx

/-- Widths 17, 12, 6 and 8 add up to 43 along the class axis, for the matrices and for the vectors. -/
theorem widthsW : Shape.Concatenates [⟨2, ![512, 17]⟩, ⟨2, ![512, 12]⟩, ⟨2, ![512, 6]⟩, ⟨2, ![512, 8]⟩] ⟨2, ![512, 43]⟩ 1 := by decide
theorem widthsB : Shape.Concatenates [⟨1, ![17]⟩, ⟨1, ![12]⟩, ⟨1, ![6]⟩, ⟨1, ![8]⟩] ⟨1, ![43]⟩ 0 := by decide

/-- The four heads' weight matrices side by side: a 512 × 43 matrix. -/
def joinedW (W0 : (⟨2, ![512, 17]⟩ : Shape).Idx → EReal) (W1 : (⟨2, ![512, 12]⟩ : Shape).Idx → EReal)
    (W2 : (⟨2, ![512, 6]⟩ : Shape).Idx → EReal) (W3 : (⟨2, ![512, 8]⟩ : Shape).Idx → EReal) :
    (⟨2, ![512, 43]⟩ : Shape).Idx → EReal :=
  concatenate ⟨2, ![512, 43]⟩ 1 [⟨⟨2, ![512, 17]⟩, W0⟩, ⟨⟨2, ![512, 12]⟩, W1⟩, ⟨⟨2, ![512, 6]⟩, W2⟩, ⟨⟨2, ![512, 8]⟩, W3⟩] widthsW

/-- The four heads' bias vectors end to end: 43 entries. -/
def joinedB (b0 : (⟨1, ![17]⟩ : Shape).Idx → EReal) (b1 : (⟨1, ![12]⟩ : Shape).Idx → EReal)
    (b2 : (⟨1, ![6]⟩ : Shape).Idx → EReal) (b3 : (⟨1, ![8]⟩ : Shape).Idx → EReal) :
    (⟨1, ![43]⟩ : Shape).Idx → EReal :=
  concatenate ⟨1, ![43]⟩ 0 [⟨⟨1, ![17]⟩, b0⟩, ⟨⟨1, ![12]⟩, b1⟩, ⟨⟨1, ![6]⟩, b2⟩, ⟨⟨1, ![8]⟩, b3⟩] widthsB

/-- The number of the head that owns result column `j`, as a 32-bit word. -/
def headOf (j : Fin 43) : BitVec 32 :=
  if j.val < 17 then 0#32 else if j.val < 29 then 1#32 else if j.val < 35 then 2#32 else 3#32

/-- One entry: the owning head's score where the row is routed to that head, zero elsewhere. -/
def entry (x : (⟨2, ![131072, 512]⟩ : Shape).Idx → EReal) (W : (⟨2, ![512, 43]⟩ : Shape).Idx → EReal)
    (b : (⟨1, ![43]⟩ : Shape).Idx → EReal) (mask : (⟨1, ![131072]⟩ : Shape).Idx → BitVec 32) (r : Fin 131072) (j : Fin 43) : EReal :=
  Scalar.select (IntOp.cmpi .eq (mask (ix1 r)) (headOf j)) ((∑ k : Fin 512, x (ix2 r k) * W (ix2 k j)) + b (ix1 j)) (0 : EReal)

/-- The whole result, 131072 × 43. -/
def result (x : (⟨2, ![131072, 512]⟩ : Shape).Idx → EReal)
    (W0 : (⟨2, ![512, 17]⟩ : Shape).Idx → EReal) (b0 : (⟨1, ![17]⟩ : Shape).Idx → EReal)
    (W1 : (⟨2, ![512, 12]⟩ : Shape).Idx → EReal) (b1 : (⟨1, ![12]⟩ : Shape).Idx → EReal)
    (W2 : (⟨2, ![512, 6]⟩ : Shape).Idx → EReal) (b2 : (⟨1, ![6]⟩ : Shape).Idx → EReal)
    (W3 : (⟨2, ![512, 8]⟩ : Shape).Idx → EReal) (b3 : (⟨1, ![8]⟩ : Shape).Idx → EReal)
    (mask : (⟨1, ![131072]⟩ : Shape).Idx → BitVec 32) : (⟨2, ![131072, 43]⟩ : Shape).Idx → EReal :=
  fun i => entry x (joinedW W0 W1 W2 W3) (joinedB b0 b1 b2 b3) mask (i 0) (i 1)

theorem result_apply (x : (⟨2, ![131072, 512]⟩ : Shape).Idx → EReal)
    (W0 : (⟨2, ![512, 17]⟩ : Shape).Idx → EReal) (b0 : (⟨1, ![17]⟩ : Shape).Idx → EReal)
    (W1 : (⟨2, ![512, 12]⟩ : Shape).Idx → EReal) (b1 : (⟨1, ![12]⟩ : Shape).Idx → EReal)
    (W2 : (⟨2, ![512, 6]⟩ : Shape).Idx → EReal) (b2 : (⟨1, ![6]⟩ : Shape).Idx → EReal)
    (W3 : (⟨2, ![512, 8]⟩ : Shape).Idx → EReal) (b3 : (⟨1, ![8]⟩ : Shape).Idx → EReal)
    (mask : (⟨1, ![131072]⟩ : Shape).Idx → BitVec 32) (r : Fin 131072) (j : Fin 43) :
    result x W0 b0 W1 b1 W2 b2 W3 b3 mask (ix2 r j) = entry x (joinedW W0 W1 W2 W3) (joinedB b0 b1 b2 b3) mask r j := rfl

/-! ## The joined arrays read inside one head's block of columns -/

/-- Column `off + c` of the joined weights is column `c` of the head whose block starts at `off`: heads 0 to 3. -/
theorem joinedW_head0 (W0 : (⟨2, ![512, 17]⟩ : Shape).Idx → EReal) (W1 : (⟨2, ![512, 12]⟩ : Shape).Idx → EReal)
    (W2 : (⟨2, ![512, 6]⟩ : Shape).Idx → EReal) (W3 : (⟨2, ![512, 8]⟩ : Shape).Idx → EReal) (k : Fin 512) (c : Fin 17) (j : Fin 43)
    (hj : j.val = c.val) : joinedW W0 W1 W2 W3 (ix2 k j) = W0 (ix2 k c) :=
  concatenate_apply_piece 1 _ _ (ix2 k j) 0 (by show (0 : ℕ) < 4; decide) ⟨2, ![512, 17]⟩ W0 rfl rfl 0 rfl (ix2 k c)
    (fun b hb => by match b with
      | ⟨0, _⟩ => rfl
      | ⟨1, _⟩ => exact absurd rfl hb)
    (by show 0 + c.val = j.val; omega)
theorem joinedW_head1 (W0 : (⟨2, ![512, 17]⟩ : Shape).Idx → EReal) (W1 : (⟨2, ![512, 12]⟩ : Shape).Idx → EReal)
    (W2 : (⟨2, ![512, 6]⟩ : Shape).Idx → EReal) (W3 : (⟨2, ![512, 8]⟩ : Shape).Idx → EReal) (k : Fin 512) (c : Fin 12) (j : Fin 43)
    (hj : j.val = 17 + c.val) : joinedW W0 W1 W2 W3 (ix2 k j) = W1 (ix2 k c) :=
  concatenate_apply_piece 1 _ _ (ix2 k j) 1 (by show (1 : ℕ) < 4; decide) ⟨2, ![512, 12]⟩ W1 rfl rfl 17 rfl (ix2 k c)
    (fun b hb => by match b with
      | ⟨0, _⟩ => rfl
      | ⟨1, _⟩ => exact absurd rfl hb)
    (by show 17 + c.val = j.val; omega)
theorem joinedW_head2 (W0 : (⟨2, ![512, 17]⟩ : Shape).Idx → EReal) (W1 : (⟨2, ![512, 12]⟩ : Shape).Idx → EReal)
    (W2 : (⟨2, ![512, 6]⟩ : Shape).Idx → EReal) (W3 : (⟨2, ![512, 8]⟩ : Shape).Idx → EReal) (k : Fin 512) (c : Fin 6) (j : Fin 43)
    (hj : j.val = 29 + c.val) : joinedW W0 W1 W2 W3 (ix2 k j) = W2 (ix2 k c) :=
  concatenate_apply_piece 1 _ _ (ix2 k j) 2 (by show (2 : ℕ) < 4; decide) ⟨2, ![512, 6]⟩ W2 rfl rfl 29 rfl (ix2 k c)
    (fun b hb => by match b with
      | ⟨0, _⟩ => rfl
      | ⟨1, _⟩ => exact absurd rfl hb)
    (by show 29 + c.val = j.val; omega)
theorem joinedW_head3 (W0 : (⟨2, ![512, 17]⟩ : Shape).Idx → EReal) (W1 : (⟨2, ![512, 12]⟩ : Shape).Idx → EReal)
    (W2 : (⟨2, ![512, 6]⟩ : Shape).Idx → EReal) (W3 : (⟨2, ![512, 8]⟩ : Shape).Idx → EReal) (k : Fin 512) (c : Fin 8) (j : Fin 43)
    (hj : j.val = 35 + c.val) : joinedW W0 W1 W2 W3 (ix2 k j) = W3 (ix2 k c) :=
  concatenate_apply_piece 1 _ _ (ix2 k j) 3 (by show (3 : ℕ) < 4; decide) ⟨2, ![512, 8]⟩ W3 rfl rfl 35 rfl (ix2 k c)
    (fun b hb => by match b with
      | ⟨0, _⟩ => rfl
      | ⟨1, _⟩ => exact absurd rfl hb)
    (by show 35 + c.val = j.val; omega)

/-- The same for the joined biases. -/
theorem joinedB_head0 (b0 : (⟨1, ![17]⟩ : Shape).Idx → EReal) (b1 : (⟨1, ![12]⟩ : Shape).Idx → EReal)
    (b2 : (⟨1, ![6]⟩ : Shape).Idx → EReal) (b3 : (⟨1, ![8]⟩ : Shape).Idx → EReal) (c : Fin 17) (j : Fin 43)
    (hj : j.val = c.val) : joinedB b0 b1 b2 b3 (ix1 j) = b0 (ix1 c) :=
  concatenate_apply_piece 0 _ _ (ix1 j) 0 (by show (0 : ℕ) < 4; decide) ⟨1, ![17]⟩ b0 rfl rfl 0 rfl (ix1 c)
    (fun b hb => by match b with
      | ⟨0, _⟩ => exact absurd rfl hb)
    (by show 0 + c.val = j.val; omega)
theorem joinedB_head1 (b0 : (⟨1, ![17]⟩ : Shape).Idx → EReal) (b1 : (⟨1, ![12]⟩ : Shape).Idx → EReal)
    (b2 : (⟨1, ![6]⟩ : Shape).Idx → EReal) (b3 : (⟨1, ![8]⟩ : Shape).Idx → EReal) (c : Fin 12) (j : Fin 43)
    (hj : j.val = 17 + c.val) : joinedB b0 b1 b2 b3 (ix1 j) = b1 (ix1 c) :=
  concatenate_apply_piece 0 _ _ (ix1 j) 1 (by show (1 : ℕ) < 4; decide) ⟨1, ![12]⟩ b1 rfl rfl 17 rfl (ix1 c)
    (fun b hb => by match b with
      | ⟨0, _⟩ => exact absurd rfl hb)
    (by show 17 + c.val = j.val; omega)
theorem joinedB_head2 (b0 : (⟨1, ![17]⟩ : Shape).Idx → EReal) (b1 : (⟨1, ![12]⟩ : Shape).Idx → EReal)
    (b2 : (⟨1, ![6]⟩ : Shape).Idx → EReal) (b3 : (⟨1, ![8]⟩ : Shape).Idx → EReal) (c : Fin 6) (j : Fin 43)
    (hj : j.val = 29 + c.val) : joinedB b0 b1 b2 b3 (ix1 j) = b2 (ix1 c) :=
  concatenate_apply_piece 0 _ _ (ix1 j) 2 (by show (2 : ℕ) < 4; decide) ⟨1, ![6]⟩ b2 rfl rfl 29 rfl (ix1 c)
    (fun b hb => by match b with
      | ⟨0, _⟩ => exact absurd rfl hb)
    (by show 29 + c.val = j.val; omega)
theorem joinedB_head3 (b0 : (⟨1, ![17]⟩ : Shape).Idx → EReal) (b1 : (⟨1, ![12]⟩ : Shape).Idx → EReal)
    (b2 : (⟨1, ![6]⟩ : Shape).Idx → EReal) (b3 : (⟨1, ![8]⟩ : Shape).Idx → EReal) (c : Fin 8) (j : Fin 43)
    (hj : j.val = 35 + c.val) : joinedB b0 b1 b2 b3 (ix1 j) = b3 (ix1 c) :=
  concatenate_apply_piece 0 _ _ (ix1 j) 3 (by show (3 : ℕ) < 4; decide) ⟨1, ![8]⟩ b3 rfl rfl 35 rfl (ix1 c)
    (fun b hb => by match b with
      | ⟨0, _⟩ => exact absurd rfl hb)
    (by show 35 + c.val = j.val; omega)

/-- The owning head of a column inside each block. -/
theorem headOf_head0 (j : Fin 43) (h : j.val < 17) : headOf j = 0#32 := by unfold headOf; rw [if_pos h]
theorem headOf_head1 (j : Fin 43) (h1 : 17 ≤ j.val) (h2 : j.val < 29) : headOf j = 1#32 := by
  unfold headOf; rw [if_neg (by omega), if_pos h2]
theorem headOf_head2 (j : Fin 43) (h1 : 29 ≤ j.val) (h2 : j.val < 35) : headOf j = 2#32 := by
  unfold headOf; rw [if_neg (by omega), if_neg (by omega), if_pos h2]
theorem headOf_head3 (j : Fin 43) (h1 : 35 ≤ j.val) : headOf j = 3#32 := by
  unfold headOf; rw [if_neg (by omega), if_neg (by omega), if_neg (by omega)]

end Cert.MaskedHeads

end
-- ==== Proof.LibPadInside.lean ====
/-
  A general fact about padding: with nothing added before an axis and nothing between its elements, the padded array
  read at an index whose every coordinate lies inside the operand is the operand read at the same coordinates.
-/
import Idealize.ShloMosaic.PureOps.ShapeOps

namespace Cert.LibPadInside

open Idealize.ShloMosaic

/-- `pad` with zero low and interior padding, read inside the operand. -/
theorem pad_apply_inside {s t u : Shape} {α : Type} (lo hi interior : Fin s.rank → Nat) (x : s.Idx → α) (v : u.Idx → α)
    (h : s.Pads lo hi interior t) (hu : 0 < u.numel) (j : t.Idx) (k : s.Idx)
    (hlo : ∀ a, lo a = 0) (hint : ∀ a, interior a = 0) (hk : ∀ a : Fin s.rank, (k a).val = (j (a.cast h.1)).val) :
    pad t lo hi interior x v h hu j = x k := by
  unfold pad
  have hin : ∀ a : Fin s.rank, lo a ≤ (j (a.cast h.1)).val ∧ ((j (a.cast h.1)).val - lo a) % (interior a + 1) = 0
      ∧ ((j (a.cast h.1)).val - lo a) / (interior a + 1) < s.size a := fun a => by
    rw [hlo a, hint a]
    refine ⟨Nat.zero_le _, by rw [Nat.zero_add]; exact Nat.mod_one _, ?_⟩
    simp only [Nat.sub_zero, Nat.zero_add, Nat.div_one]
    rw [← hk a]
    exact (k a).isLt
  rw [dif_pos hin]
  refine congrArg x (funext fun a => Fin.ext ?_)
  show ((j (a.cast h.1)).val - lo a) / (interior a + 1) = (k a).val
  rw [hlo a, hint a, hk a]
  simp

end Cert.LibPadInside
-- ==== Proof.KernelEntry.lean ====
/-
  What the region finds in the arrays the host lines prepared, over the extended reals, and each read at an index:
  the weight matrix is the four heads' matrices side by side, padded with zeros to 128 columns, so inside the first 43
  columns it is the joined matrix; the bias row is the four bias vectors end to end, viewed as one row and padded the
  same way; the class-id row holds, at a column below 43, the number of the head owning it; the mask column is the
  routing words as a 131072 × 1 column; the x array is as launched.
-/
import proofs.«178423_j18090402250892_1_alg».proof.Proof.KernelIdealFrame
import proofs.«178423_j18090402250892_1_alg».proof.Proof.Spec
import proofs.«178423_j18090402250892_1_alg».proof.Proof.LibPadInside
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

open scoped BigOperators

namespace Cert.KernelIdeal.Entry

open Idealize.ShloMosaic Idealize.ShloMosaic.TcCoe Idealize.ShloMosaic.ValueIdx Idealize.SL.Sem Idealize.ShloMosaic.StableHlo
open Cert.KernelIdeal Cert.KernelIdeal.Gen Cert.KernelIdeal.Frame Cert.MaskedHeads

variable (m : (ℓ : Loc nD τ sig) → Buf (Elt Ideal) ℓ)

/-! ## The arrays when the region is entered -/

theorem weights_eq (c : Dev nD) : (V m c main_v1 : S512x128.Idx → EReal) =
    pad S512x128 ![0, 0] ![0, 85] ![0, 0]
      (concatenate S512x43 1 [⟨S512x17, m ((c : Thread nD τ).loc main_arg1)⟩, ⟨S512x12, m ((c : Thread nD τ).loc main_arg3)⟩,
        ⟨S512x6, m ((c : Thread nD τ).loc main_arg5)⟩, ⟨S512x8, m ((c : Thread nD τ).loc main_arg7)⟩] concatenates_S512x17_S512x12_S512x6_S512x8_S512x43_d1)
      (sitofp (F := Ideal) .f32 (constantI S_ 32 0#32)) pads_S512x43_S512x128_000_0850 h_S_ := by
  dsimp only [V, V0, prefixOps]
  simp only [hostOps0, hostOps0_1, hostOps0_2, hostOps0_3, hostOps0_4, List.flatten_cons, List.flatten_nil, List.append_nil,
    List.cons_append, List.nil_append]
  after_results
  rfl

theorem bias_eq (c : Dev nD) : (V m c main_v4 : S1x128.Idx → EReal) =
    pad S1x128 ![0, 0] ![0, 85] ![0, 0]
      (shapeCast S1x43 (concatenate S43 0 [⟨S17, m ((c : Thread nD τ).loc main_arg2)⟩, ⟨S12, m ((c : Thread nD τ).loc main_arg4)⟩,
        ⟨S6, m ((c : Thread nD τ).loc main_arg6)⟩, ⟨S8, m ((c : Thread nD τ).loc main_arg8)⟩] concatenates_S17_S12_S6_S8_S43_d0) shapeCasts_S43_S1x43)
      (sitofp (F := Ideal) .f32 (constantI S_ 32 0#32)) pads_S1x43_S1x128_000_0850 h_S_ := by
  dsimp only [V, V0, prefixOps]
  simp only [hostOps0, hostOps0_1, hostOps0_2, hostOps0_3, hostOps0_4, List.flatten_cons, List.flatten_nil, List.append_nil,
    List.cons_append, List.nil_append]
  after_results
  rfl

theorem classIds_eq (c : Dev nD) : (V m c main_c : S1x128.Idx → BitVec 32) = fun i => lit0 (S1x128.rowMajor i) := by
  dsimp only [V, V0, prefixOps]
  simp only [hostOps0, hostOps0_1, hostOps0_2, hostOps0_3, hostOps0_4, List.flatten_cons, List.flatten_nil, List.append_nil,
    List.cons_append, List.nil_append]
  after_results
  rfl

theorem maskCol_eq (c : Dev nD) : (V m c main_v5 : S131072x1.Idx → BitVec 32) =
    shapeCast S131072x1 (m ((c : Thread nD τ).loc main_arg9)) shapeCasts_S131072_S131072x1 := by
  dsimp only [V, V0, prefixOps]
  simp only [hostOps0, hostOps0_1, hostOps0_2, hostOps0_3, hostOps0_4, List.flatten_cons, List.flatten_nil, List.append_nil,
    List.cons_append, List.nil_append]
  after_results
  rfl

/-! ## Read at an index -/

/-- Inside the first 43 columns the padded weight matrix is the joined one. -/
theorem weights_apply (c : Dev nD) (k : Fin 512) (j : Fin 128) (j' : Fin 43) (hj : j.val = j'.val) :
    V m c main_v1 (ix2 k j) = joinedW (m ((c : Thread nD τ).loc main_arg1)) (m ((c : Thread nD τ).loc main_arg3)) (m ((c : Thread nD τ).loc main_arg5)) (m ((c : Thread nD τ).loc main_arg7)) (ix2 k j') :=
  (congrFun (weights_eq m c) (ix2 k j)).trans
    (Cert.LibPadInside.pad_apply_inside _ _ _ _ _ pads_S512x43_S512x128_000_0850 h_S_ (ix2 k j) (ix2 k j')
      (fun a => by fin_cases a <;> rfl) (fun a => by fin_cases a <;> rfl)
      (fun a => by
        match a with
        | ⟨0, _⟩ => rfl
        | ⟨1, _⟩ => exact hj.symm))

/-- Inside the first 43 columns the padded bias row is the joined bias vector. -/
theorem bias_apply (c : Dev nD) (j : Fin 128) (j' : Fin 43) (hj : j.val = j'.val) :
    V m c main_v4 (ix2 (0 : Fin 1) j) = joinedB (m ((c : Thread nD τ).loc main_arg2)) (m ((c : Thread nD τ).loc main_arg4)) (m ((c : Thread nD τ).loc main_arg6)) (m ((c : Thread nD τ).loc main_arg8)) (ix1 j') :=
  (congrFun (bias_eq m c) (ix2 (0 : Fin 1) j)).trans
    ((Cert.LibPadInside.pad_apply_inside _ _ _ _ _ pads_S1x43_S1x128_000_0850 h_S_ (ix2 (0 : Fin 1) j) (ix2 (0 : Fin 1) j')
      (fun a => by fin_cases a <;> rfl) (fun a => by fin_cases a <;> rfl)
      (fun a => by
        match a with
        | ⟨0, _⟩ => rfl
        | ⟨1, _⟩ => exact hj.symm)).trans (shapeCast_a_1a_apply _ shapeCasts_S43_S1x43 (0 : Fin 1) j'))

/-- The class-id table's first 43 entries are the owning heads' numbers. -/
theorem classTable : ∀ j' : Fin 43, lit0 ⟨j'.val, by omega⟩ = headOf j' := by decide

/-- At a column below 43 the class-id row holds the number of the head owning the column. -/
theorem classIds_apply (c : Dev nD) (j : Fin 128) (j' : Fin 43) (hj : j.val = j'.val) :
    V m c main_c (ix2 (0 : Fin 1) j) = headOf j' := by
  rw [congrFun (classIds_eq m c) (ix2 (0 : Fin 1) j), ← classTable j']
  refine congrArg lit0 (Fin.ext ?_)
  show (S1x128.rowMajor (ix2 (0 : Fin 1) j)).val = j'.val
  rw [Shape.rowMajor_val_two]
  show 0 * 128 + j.val = j'.val
  omega

/-- The mask column at row r is the routing word of row r. -/
theorem maskCol_apply (c : Dev nD) (r : Fin 131072) :
    V m c main_v5 (ix2 r (0 : Fin 1)) = (m ((c : Thread nD τ).loc main_arg9)) (ix1 r) := by
  rw [congrFun (maskCol_eq m c) (ix2 r (0 : Fin 1))]
  refine shapeCast_apply _ shapeCasts_S131072_S131072x1 (ix2 r (0 : Fin 1)) (ix1 r) ?_
  rw [Shape.rowMajor_val_one, Shape.rowMajor_val_two]
  show r.val = r.val * 1 + 0
  omega

/-- The x array is as launched. -/
theorem x_eq (c : Dev nD) : V m c main_arg0 = m ((c : Thread nD τ).loc main_arg0) := V_arg m c main_arg0 (by simp [argRefs])

end Cert.KernelIdeal.Entry

end
-- ==== Proof.LibPlainDot.lean ====
/-
  General facts about the shapes a row-wise dense layer meets, on the extended reals: a rows-by-columns matrix product
  read at one entry as a sum over the shared axis; a column broadcast across the columns; a bias vector laid along the
  rows.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.LibPlainDot

open Idealize.ShloMosaic Idealize.ShloMosaic.ValueIdx

/-- The contraction sum of an `M×K` by `K×N` product at entry `(p, j)` is `∑ₖ l(p,k)·r(k,j)`: the one contracted axis
    is re-indexed by its coordinate; the left operand is read at the entry's row and the right at its column (the four
    hypotheses say so of the dimension numbers, coordinate by coordinate). -/
theorem sum_plain {M K N : Nat} (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (l : (⟨2, ![M, K]⟩ : Shape).Idx → EReal) (r : (⟨2, ![K, N]⟩ : Shape).Idx → EReal) (p : Fin M) (j : Fin N) :
    ∑ q : D.contr.Idx, l (D.lhsIdx (ix2 p j) q) * r (D.rhsIdx (ix2 p j) q) = ∑ k : Fin K, l (ix2 p k) * r (ix2 k j) := by
  rw [← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun a => Fin.ext (by
    match a with
    | ⟨0, _⟩ => exact hl0 _ _
    | ⟨1, _⟩ => exact (hl1 _ _).trans hk)
  have er : D.rhsIdx (ix2 p j) ((contrEquiv1 D K hr hs).symm k) = ix2 k j := funext fun a => Fin.ext (by
    match a with
    | ⟨0, _⟩ => exact (hr0 _ _).trans hk
    | ⟨1, _⟩ => exact hr1 _ _)
  rw [el, er]

/-- A matrix product accumulated into zeros, read at entry `(p, j)`. -/
theorem matmul_plain_apply {M K N : Nat} (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (prec : Option ContractPrecision)
    (l : FVec Ideal ⟨2, ![M, K]⟩ .f32) (r : FVec Ideal ⟨2, ![K, N]⟩ .f32) (p : Fin M) (j : Fin N) :
    FloatOps.matmul D prec l r (constant (F := Ideal) ⟨2, ![M, N]⟩ .f32 0x00000000#32) (ix2 p j)
      = ∑ k : Fin K, l (ix2 p k) * r (ix2 k j) := by
  rw [Ideal.matmul_constant_zero_apply]
  exact sum_plain D hr hs hl0 hl1 hr0 hr1 l r p j

variable {α : Type}

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A bias vector `[b]` viewed as one row `[1, b]` and laid along `a` rows reads, at `(p, c)`, its entry `c`. -/
theorem bias_row_apply {a b : ℕ} (x : (⟨1, ![b]⟩ : Shape).Idx → α)
    (h : (⟨1, ![b]⟩ : Shape).ShapeCasts ⟨2, ![1, b]⟩) (h' : (⟨2, ![1, b]⟩ : Shape).Broadcasts ⟨2, ![a, b]⟩)
    (p : Fin a) (c : Fin b) :
    broadcastTo ⟨2, ![a, b]⟩ (shapeCast ⟨2, ![1, b]⟩ x h) h' (ix2 p c) = x (ix1 c) := by
  rw [broadcastTo_1b_ab_apply, shapeCast_a_1a_apply]

/-- The word of all zero bits is the real number zero. -/
theorem scalar_zero : (Scalar.ofBits (F := Ideal) .f32 0x00000000#32 : Ideal .f32) = (0 : EReal) :=
  Ideal.ofBits_zero_f32

end Cert.LibPlainDot

end
-- ==== Proof.KernelPayload.lean ====
/-
  The value the kernel body stores, read at one entry of the 4096 × 128 output tile, over the extended reals:
  at row p and column j it is the score  ∑ₖ x(p, k) · w(k, j) + bias(j)  where the tile's routing word mask(p) equals
  the column's class id cls(j), and zero elsewhere. Rounding the operands to bf16 is the identity on the extended reals,
  and the matrix unit accumulating into zeros computes the plain sum over the 512 shared features.
-/
import proofs.«178423_j18090402250892_1_alg».proof.Proof.Gen.KernelIdeal.Skeleton
import proofs.«178423_j18090402250892_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload

open Idealize.ShloMosaic Idealize.ShloMosaic.ValueIdx Cert.KernelIdeal Cert.KernelIdeal.Gen

/-! ## The matrix product's dimension numbers, coordinate by coordinate -/

theorem lhs_dot_0 (i : S4096x128.Idx) (q : dot_S4096x512_S512x128_S4096x128_1_0_0_1_n_n.contr.Idx) :
    (dot_S4096x512_S512x128_S4096x128_1_0_0_1_n_n.lhsIdx i q 0).val = (i 0).val := by
  unfold DotDims.lhsIdx
  rw [dif_neg (show ¬(0 : Fin S4096x512.rank) ∈ dot_S4096x512_S512x128_S4096x128_1_0_0_1_n_n.lhsBatch by decide), dif_pos (show (0 : Fin S4096x512.rank) ∈ dot_S4096x512_S512x128_S4096x128_1_0_0_1_n_n.lhsNonContracting by decide)]
  rfl
theorem lhs_dot_1 (i : S4096x128.Idx) (q : dot_S4096x512_S512x128_S4096x128_1_0_0_1_n_n.contr.Idx) :
    (dot_S4096x512_S512x128_S4096x128_1_0_0_1_n_n.lhsIdx i q 1).val = (q ⟨0, by decide⟩).val :=
  dot_S4096x512_S512x128_S4096x128_1_0_0_1_n_n.lhsIdx_val_of_single rfl i q
theorem rhs_dot_0 (i : S4096x128.Idx) (q : dot_S4096x512_S512x128_S4096x128_1_0_0_1_n_n.contr.Idx) :
    (dot_S4096x512_S512x128_S4096x128_1_0_0_1_n_n.rhsIdx i q 0).val = (q ⟨0, by decide⟩).val :=
  dot_S4096x512_S512x128_S4096x128_1_0_0_1_n_n.rhsIdx_val_of_single rfl i q
theorem rhs_dot_1 (i : S4096x128.Idx) (q : dot_S4096x512_S512x128_S4096x128_1_0_0_1_n_n.contr.Idx) :
    (dot_S4096x512_S512x128_S4096x128_1_0_0_1_n_n.rhsIdx i q 1).val = (i 1).val := by
  unfold DotDims.rhsIdx
  rw [dif_neg (show ¬(1 : Fin S512x128.rank) ∈ dot_S4096x512_S512x128_S4096x128_1_0_0_1_n_n.rhsBatch by decide), dif_pos (show (1 : Fin S512x128.rank) ∈ dot_S4096x512_S512x128_S4096x128_1_0_0_1_n_n.rhsNonContracting by decide)]
  rfl

/-- The product of the rounded tile and the rounded weights, accumulated into zeros, at entry (p, j). -/
theorem scores_apply (x0 : Vec Ideal S4096x512 .f32) (w0 : Vec Ideal S512x128 .f32) (p : Fin 4096) (j : Fin 128) :
    matmul dot_S4096x512_S512x128_S4096x128_1_0_0_1_n_n none (truncf .bf16 x0 bitsLt_bf16_f32)
        (truncf .bf16 (shapeCast S512x128 w0 shapeCasts_S512x128_S512x128) bitsLt_bf16_f32)
        (constant (F := Ideal) S4096x128 .f32 0x00000000#32) (ix2 p j)
      = ∑ k : Fin 512, x0 (ix2 p k) * w0 (ix2 k j) := by
  show FloatOps.matmul dot_S4096x512_S512x128_S4096x128_1_0_0_1_n_n none _ _ _ (ix2 p j) = _
  rw [Ideal.matmul_constant_zero_apply, shapeCast_self]
  exact Cert.LibPlainDot.sum_plain dot_S4096x512_S512x128_S4096x128_1_0_0_1_n_n rfl rfl lhs_dot_0 lhs_dot_1 rhs_dot_0 rhs_dot_1 x0 w0 p j

/-- An integer comparison of two vectors, read at an index. -/
theorem cmpi_at {s : Shape} {w : Nat} (pr : CmpIPredicate) (a b : IVec s w) (i : s.Idx) :
    cmpi pr a b i = IntOp.cmpi pr (a i) (b i) := rfl

/-- The stored value at entry (p, j). -/
theorem stored_apply (x0 : Vec Ideal S4096x512 .f32) (w0 : Vec Ideal S512x128 .f32) (b0 : Vec Ideal S1x128 .f32)
    (mk0 : Vec Ideal S4096x1 .i32) (cls0 : Vec Ideal S1x128 .i32) (p : Fin 4096) (j : Fin 128) :
    k0_pay1 (F := Ideal) x0 w0 b0 mk0 cls0 (ix2 p j)
      = Scalar.select (IntOp.cmpi .eq (mk0 (ix2 p (0 : Fin 1))) (cls0 (ix2 (0 : Fin 1) j)))
          ((∑ k : Fin 512, x0 (ix2 p k) * w0 (ix2 k j)) + b0 (ix2 (0 : Fin 1) j)) (0 : EReal) := by
  unfold k0_pay1
  rw [select_apply, addf_apply, scores_apply, cmpi_at, broadcast_apply]
  simp only [shapeCast_self]
  rw [Cert.LibPlainDot.broadcastTo_a1_ab_apply, broadcastTo_1b_ab_apply, broadcastTo_1b_ab_apply]
  exact congrArg (Scalar.select _ _) Ideal.ofBits_zero_f32

end Cert.KernelIdeal.Payload

end
-- ==== Proof.KernelWhole.lean ====
/-
  The kernel program's result, over the extended reals, is the specification.

  One grid point t stores, into the output tile, the masked scores of the x tile's 4096 rows against all 128 padded
  columns; the tile of point t is rows 4096·t … 4096·t + 4095 of the output array, the 32 tiles cover it, so after the
  region the output array is ONE function of the arrays the region found: at row R and padded column j, the score
  ∑ₖ x(R, k)·Wpad(k, j) + bpad(j) where mask(R) = cls(j), zero elsewhere. The last host line keeps the first 43 columns,
  and there the padded weights, the padded bias and the class ids are the joined weights, the joined bias and the
  owning head's number: the specification's entry.
-/
import proofs.«178423_j18090402250892_1_alg».proof.Proof.KernelEntry
import proofs.«178423_j18090402250892_1_alg».proof.Proof.KernelPayload

set_option maxRecDepth 16384

noncomputable section

open scoped BigOperators

namespace Cert.KernelIdeal.Whole

open Idealize.ShloMosaic Idealize.ShloMosaic.TcCoe Idealize.ShloMosaic.ValueIdx Idealize.SL.Sem Idealize.ShloMosaic.StableHlo
open Idealize.ShloMosaic.Pipeline (Dat)
open Cert.KernelIdeal Cert.KernelIdeal.Gen Cert.KernelIdeal.Frame Cert.KernelIdeal.Entry Cert.KernelIdeal.Payload Cert.MaskedHeads

variable (m : (ℓ : Loc nD τ sig) → Buf (Elt Ideal) ℓ)

/-! ## The output array as one function of the arrays the region found -/

/-- The masked score at row R and padded column j. -/
def scoreAt (X : S131072x512.Idx → EReal) (Wp : S512x128.Idx → EReal) (Bp : S1x128.Idx → EReal) (Cl : S1x128.Idx → BitVec 32)
    (Mk : S131072x1.Idx → BitVec 32) (R : Fin 131072) (j : Fin 128) : EReal :=
  Scalar.select (IntOp.cmpi .eq (Mk (ix2 R (0 : Fin 1))) (Cl (ix2 (0 : Fin 1) j)))
    ((∑ k : Fin 512, X (ix2 R k) * Wp (ix2 k j)) + Bp (ix2 (0 : Fin 1) j)) (0 : EReal)

/-- All of them: the 131072 × 128 array. -/
def scoresOf (X : S131072x512.Idx → EReal) (Wp : S512x128.Idx → EReal) (Bp : S1x128.Idx → EReal) (Cl : S1x128.Idx → BitVec 32)
    (Mk : S131072x1.Idx → BitVec 32) : S131072x128.Idx → EReal :=
  fun i => scoreAt X Wp Bp Cl Mk (i 0) (i 1)

/-- One entry of it. -/
theorem scoresOf_apply (X : S131072x512.Idx → EReal) (Wp : S512x128.Idx → EReal) (Bp : S1x128.Idx → EReal) (Cl : S1x128.Idx → BitVec 32)
    (Mk : S131072x1.Idx → BitVec 32) (R : Fin 131072) (j : Fin 128) :
    scoresOf X Wp Bp Cl Mk (ix2 R j)
      = Scalar.select (IntOp.cmpi .eq (Mk (ix2 R (0 : Fin 1))) (Cl (ix2 (0 : Fin 1) j)))
          ((∑ k : Fin 512, X (ix2 R k) * Wp (ix2 k j)) + Bp (ix2 (0 : Fin 1) j)) (0 : EReal) := rfl

/-- The five arrays the region reads, as it finds them, at their literal types: x, the padded weights, the padded bias
    row, the class-id row and the mask column. -/
abbrev xA (c : Dev nD) : S131072x512.Idx → EReal := V m c main_arg0
abbrev wA (c : Dev nD) : S512x128.Idx → EReal := V m c main_v1
abbrev bA (c : Dev nD) : S1x128.Idx → EReal := V m c main_v4
abbrev clsA (c : Dev nD) : S1x128.Idx → BitVec 32 := V m c main_c
abbrev mkA (c : Dev nD) : S131072x1.Idx → BitVec 32 := V m c main_v5

/-- The array the region leaves, named. -/
abbrev regionOut (c : Dev nD) : S131072x128.Idx → EReal :=
  scoresOf (xA m c) (wA m c) (bA m c) (clsA m c) (mkA m c)

theorem hz : (![0, 0] : Fin 2 → Nat) = fun _ => 0 := funext fun a => by fin_cases a <;> rfl

/-- The printed index maps over the 32 grid points: the x tile and the mask tile move with the output tile down the
    rows; the weights, the bias row and the class-id row stay; the output tile of point t is tile number at most 31. -/
theorem tile_index : ∀ t : Fin cfg0.N,
    win0_0.index t (0 : Fin 2) = win0_5.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = win0_5.index t (0 : Fin 2) ∧ win0_4.index t (1 : Fin 2) = 0
    ∧ win0_5.index t (0 : Fin 2) ≤ 31 ∧ win0_5.index t (1 : Fin 2) = 0 :=
  (by decide +kernel : ∀ t : Fin grid0.N, _)

/-- Every one of the 32 row tiles is some point's. -/
theorem tile_onto : ∀ q0 : Fin 32, ∃ t : Fin cfg0.N, win0_5.index t = ![q0.val, 0] :=
  (by decide +kernel : ∀ q0 : Fin 32, ∃ t : Fin grid0.N, win0_5.index t = ![q0.val, 0])

/-! ## The input blocks read at explicit coordinates -/

/-- The five input blocks of point t at their literal vector types: the x tile, the padded weights, the padded bias row,
    the class-id row and the mask tile. -/
abbrev xT (c : Dev nD) (t : Fin cfg0.N) : Vec Ideal S4096x512 .f32 := iblk m c 0 t
abbrev wT (c : Dev nD) (t : Fin cfg0.N) : Vec Ideal S512x128 .f32 := iblk m c 1 t
abbrev bT (c : Dev nD) (t : Fin cfg0.N) : Vec Ideal S1x128 .f32 := iblk m c 2 t
abbrev clsT (c : Dev nD) (t : Fin cfg0.N) : Vec Ideal S1x128 .i32 := iblk m c 3 t
abbrev mkT (c : Dev nD) (t : Fin cfg0.N) : Vec Ideal S4096x1 .i32 := iblk m c 4 t

theorem xblk_apply (c : Dev nD) (t : Fin cfg0.N) (p : Fin 4096) (k : Fin 512) (R : Fin 131072)
    (hR : R.val = win0_5.index t (0 : Fin 2) * 4096 + p.val) :
    xT m c t (ix2 p k) = xA m c (ix2 R k) := by
  obtain ⟨e00, e01, -⟩ := tile_index t
  show V m c main_arg0 (((cfg0.win 0).blk t).view.emb (ix2 p k)) = V m c main_arg0 (ix2 R k)
  refine congrArg (V m c main_arg0) (funext fun a => Fin.ext ?_)
  match a with
  | ⟨0, _⟩ => show win0_0.index t (0 : Fin 2) * 4096 + 1 * p.val = R.val; omega
  | ⟨1, _⟩ => show win0_0.index t (1 : Fin 2) * 512 + 1 * k.val = k.val; omega

theorem wblk_apply (c : Dev nD) (t : Fin cfg0.N) (k : Fin 512) (j : Fin 128) :
    wT m c t (ix2 k j) = wA m c (ix2 k j) := by
  obtain ⟨-, -, e10, e11, -⟩ := tile_index t
  show V m c main_v1 (((cfg0.win 1).blk t).view.emb (ix2 k j)) = V m c main_v1 (ix2 k j)
  refine congrArg (V m c main_v1) (funext fun a => Fin.ext ?_)
  match a with
  | ⟨0, _⟩ => show win0_1.index t (0 : Fin 2) * 512 + 1 * k.val = k.val; omega
  | ⟨1, _⟩ => show win0_1.index t (1 : Fin 2) * 128 + 1 * j.val = j.val; omega

theorem bblk_apply (c : Dev nD) (t : Fin cfg0.N) (j : Fin 128) :
    bT m c t (ix2 (0 : Fin 1) j) = bA m c (ix2 (0 : Fin 1) j) := by
  obtain ⟨-, -, -, -, e20, e21, -⟩ := tile_index t
  show V m c main_v4 (((cfg0.win 2).blk t).view.emb (ix2 (0 : Fin 1) j)) = V m c main_v4 (ix2 (0 : Fin 1) j)
  refine congrArg (V m c main_v4) (funext fun a => Fin.ext ?_)
  match a with
  | ⟨0, _⟩ => show win0_2.index t (0 : Fin 2) * 1 + 1 * 0 = 0; omega
  | ⟨1, _⟩ => show win0_2.index t (1 : Fin 2) * 128 + 1 * j.val = j.val; omega

theorem clsblk_apply (c : Dev nD) (t : Fin cfg0.N) (j : Fin 128) :
    clsT m c t (ix2 (0 : Fin 1) j) = clsA m c (ix2 (0 : Fin 1) j) := by
  obtain ⟨-, -, -, -, -, -, e30, e31, -⟩ := tile_index t
  show V m c main_c (((cfg0.win 3).blk t).view.emb (ix2 (0 : Fin 1) j)) = V m c main_c (ix2 (0 : Fin 1) j)
  refine congrArg (V m c main_c) (funext fun a => Fin.ext ?_)
  match a with
  | ⟨0, _⟩ => show win0_3.index t (0 : Fin 2) * 1 + 1 * 0 = 0; omega
  | ⟨1, _⟩ => show win0_3.index t (1 : Fin 2) * 128 + 1 * j.val = j.val; omega

theorem mblk_apply (c : Dev nD) (t : Fin cfg0.N) (p : Fin 4096) (R : Fin 131072)
    (hR : R.val = win0_5.index t (0 : Fin 2) * 4096 + p.val) :
    mkT m c t (ix2 p (0 : Fin 1)) = mkA m c (ix2 R (0 : Fin 1)) := by
  obtain ⟨-, -, -, -, -, -, -, -, e40, e41, -⟩ := tile_index t
  show V m c main_v5 (((cfg0.win 4).blk t).view.emb (ix2 p (0 : Fin 1))) = V m c main_v5 (ix2 R (0 : Fin 1))
  refine congrArg (V m c main_v5) (funext fun a => Fin.ext ?_)
  match a with
  | ⟨0, _⟩ => show win0_4.index t (0 : Fin 2) * 4096 + 1 * p.val = R.val; omega
  | ⟨1, _⟩ => show win0_4.index t (1 : Fin 2) * 1 + 1 * 0 = 0; omega

/-- Any function of the output array's indices, read through point t's output tile at (p, j), is the function at row
    4096·(tile number) + p and column j. -/
theorem outblk_apply (G : S131072x128.Idx → EReal) (t : Fin cfg0.N) (p : Fin 4096) (j : Fin 128) (R : Fin 131072)
    (hR : R.val = win0_5.index t (0 : Fin 2) * 4096 + p.val) :
    ((cfg0.win 5).blk t).view.read (Elt Ideal) G (ix2 p j) = G (ix2 R j) := by
  obtain ⟨-, -, -, -, -, -, -, -, -, -, e5a, e5b⟩ := tile_index t
  show G (((cfg0.win 5).blk t).view.emb (ix2 p j)) = G (ix2 R j)
  refine congrArg G (funext fun a => Fin.ext ?_)
  match a with
  | ⟨0, _⟩ => show win0_5.index t (0 : Fin 2) * 4096 + 1 * p.val = R.val; omega
  | ⟨1, _⟩ => show win0_5.index t (1 : Fin 2) * 128 + 1 * j.val = j.val; omega

/-! ## What one point writes back -/

/-- The value point t stores is the region's output function read through the point's output tile. -/
theorem point_eq (c : Dev nD) (t : Fin cfg0.N) :
    k0_pay1 (F := Ideal) (xT m c t) (wT m c t) (bT m c t) (mkT m c t) (clsT m c t)
      = ((cfg0.win 5).blk t).view.read (Elt Ideal) (regionOut m c) := by
  obtain ⟨-, -, -, -, -, -, -, -, -, -, e5a, e5b⟩ := tile_index t
  funext y
  obtain ⟨p, j, rfl⟩ : ∃ (p : Fin 4096) (j : Fin 128), y = ix2 p j := ⟨y 0, y 1, eq_ix2 y⟩
  have hp : p.val < 4096 := p.isLt
  have hRlt : win0_5.index t (0 : Fin 2) * 4096 + p.val < 131072 := by omega
  refine (stored_apply (xT m c t) (wT m c t) (bT m c t) (mkT m c t) (clsT m c t) p j).trans ?_
  rw [mblk_apply m c t p ⟨_, hRlt⟩ rfl, clsblk_apply m c t j, bblk_apply m c t j]
  have hs : ∀ k : Fin 512, xT m c t (ix2 p k) * wT m c t (ix2 k j)
      = xA m c (ix2 (⟨_, hRlt⟩ : Fin 131072) k) * wA m c (ix2 k j) := fun k => by
    rw [xblk_apply m c t p k ⟨_, hRlt⟩ rfl, wblk_apply m c t k j]
  rw [Finset.sum_congr rfl (fun k _ => hs k)]
  refine Eq.trans ?_ (outblk_apply (regionOut m c) t p j ⟨_, hRlt⟩ rfl).symm
  exact (scoresOf_apply (xA m c) (wA m c) (bA m c) (clsA m c) (mkA m c) ⟨_, hRlt⟩ j).symm

theorem flushed_eq (c : Dev nD) (t : Fin cfg0.N) :
    (dats m 0 c).flushed 5 t = ((cfg0.win 5).blk t).view.read (Elt Ideal) (regionOut m c) := by
  show (cfg0.win 5).cut (grid0.coords t) ((dats m 0 c).after 5 t) = _
  rw [after_out]
  unfold outTile
  rw [View.canon_unit_zero hz]
  simp only [View.ld_unit_zero (S := S4096x512) hz, View.ld_unit_zero (S := S512x128) hz, View.ld_unit_zero (S := S1x128) hz,
    View.ld_unit_zero (S := S4096x1) hz]
  exact point_eq m c t

/-! ## The tiles cover the array -/

theorem mem_tile (t : Fin cfg0.N) (i : S131072x128.Idx) :
    i ∈ ((cfg0.win 5).blk t).view.set ↔ ∀ a : Fin 2, win0_5.index t a * S4096x128.size a ≤ (i a).val
      ∧ (i a).val < win0_5.index t a * S4096x128.size a + S4096x128.size a := by
  show i ∈ ((View.whole main_v6).slice (win0_5.rect t)).set ↔ _
  rw [View.set_slice_whole, Rect.mem_set_unit]
  exact Iff.rfl

theorem covered (i : S131072x128.Idx) :
    ∃ t : Fin cfg0.N, (cfg0.win 5).flush t = true ∧ i ∈ ((cfg0.win 5).blk t).view.set := by
  have hi0 : (i 0).val < 131072 := (i 0).isLt
  have hi1 : (i 1).val < 128 := (i 1).isLt
  obtain ⟨t, ht⟩ := tile_onto ⟨(i 0).val / 4096, by omega⟩
  have q0 : win0_5.index t (0 : Fin 2) = (i 0).val / 4096 := congrFun ht 0
  have q1 : win0_5.index t (1 : Fin 2) = 0 := congrFun ht 1
  refine ⟨t, flush0_5 t, ?_⟩
  rw [mem_tile]
  intro a
  match a with
  | ⟨0, _⟩ => show win0_5.index t (0 : Fin 2) * 4096 ≤ (i 0).val ∧ (i 0).val < win0_5.index t (0 : Fin 2) * 4096 + 4096; omega
  | ⟨1, _⟩ => show win0_5.index t (1 : Fin 2) * 128 ≤ (i 1).val ∧ (i 1).val < win0_5.index t (1 : Fin 2) * 128 + 128; omega

/-- The output array after the region. -/
theorem region_final (c : Dev nD) : (dats m 0 c).arrAt 5 cfg0.N = regionOut m c :=
  (dats m 0 c).arrAt_eq_of_cover 5 (regionOut m c) (fun t _ => flushed_eq m c t) covered

/-! ## The slice, and the specification -/

/-- The program's result buffer holds the first 43 columns of the region's output array. -/
theorem sliced (c : Dev nD) : (finalV m c main_v7 : S131072x43.Idx → EReal) =
    extractStridedSlice S131072x43 ![0, 0] (regionOut m c) slices_S131072x128_S131072x43_0_0 := by
  dsimp only [finalV]
  unfold Pipeline.afterTail₀
  show StableHlo.after hostOps1 _ (Proc.devRef .tc main_v7) = _
  after_results
  exact congrArg (fun A => extractStridedSlice S131072x43 ![0, 0] A slices_S131072x128_S131072x43_0_0)
    ((Pipeline.withArrays_arr spec0 launch0.win.arr_inj c (V0 m c) (fun w => (dats m 0 c).arrAt w cfg0.N) 5).trans (region_final m c))

end Cert.KernelIdeal.Whole

end
-- ==== Proof.KernelSpec.lean ====
/-
  The kernel program's result is the specification: the last host line keeps the first 43 of the 128 padded columns of
  the array the region leaves; at such a column j the padded weight matrix is the joined one, the padded bias row the
  joined bias, the class-id row the number of the head owning j, the mask column at row r the routing word of row r
  and the x array the launched one — so the region's masked score at (r, j) is the specification's entry (r, j).
-/
import proofs.«178423_j18090402250892_1_alg».proof.Proof.KernelWhole

set_option maxRecDepth 16384

noncomputable section

open scoped BigOperators

namespace Cert.KernelIdeal.Whole

open Idealize.ShloMosaic Idealize.ShloMosaic.TcCoe Idealize.ShloMosaic.ValueIdx Idealize.SL.Sem Idealize.ShloMosaic.StableHlo
open Cert.KernelIdeal Cert.KernelIdeal.Gen Cert.KernelIdeal.Frame Cert.KernelIdeal.Entry Cert.MaskedHeads

variable (m : (ℓ : Loc nD τ sig) → Buf (Elt Ideal) ℓ)

/-- The first 43 columns of any 131072 × 128 array: entry (r, j′) is the array's entry (r, j′). -/
theorem slice_apply (G : S131072x128.Idx → EReal) (r : Fin 131072) (j' : Fin 43) (j : Fin 128) (hj : j.val = j'.val) :
    extractStridedSlice S131072x43 ![0, 0] G slices_S131072x128_S131072x43_0_0 (ix2 r j') = G (ix2 r j) :=
  extractStridedSlice_apply ![0, 0] G slices_S131072x128_S131072x43_0_0 (ix2 r j') (ix2 r j) (fun a => by
    match a with
    | ⟨0, _⟩ => show r.val = 0 + r.val; omega
    | ⟨1, _⟩ => show j.val = 0 + j'.val; omega)

/-- The kernel program's result is the specification of the launch contents of the ten arguments. -/
theorem kernel_is_spec (c : Dev nD) : (finalV m c main_v7 : S131072x43.Idx → EReal) =
    result (m ((c : Thread nD τ).loc main_arg0)) (m ((c : Thread nD τ).loc main_arg1)) (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) (m ((c : Thread nD τ).loc main_arg8)) (m ((c : Thread nD τ).loc main_arg9)) := by
  refine (sliced m c).trans ?_
  funext i
  obtain ⟨r, j', rfl⟩ : ∃ (r : Fin 131072) (j' : Fin 43), i = ix2 r j' := ⟨i 0, i 1, eq_ix2 i⟩
  have hj : j'.val < 128 := by have := j'.isLt; omega
  rw [result_apply]
  refine (slice_apply (regionOut m c) r j' ⟨j'.val, hj⟩ rfl).trans ?_
  refine (scoresOf_apply (xA m c) (wA m c) (bA m c) (clsA m c) (mkA m c) r ⟨j'.val, hj⟩).trans ?_
  unfold entry
  have hW : ∀ k : Fin 512, wA m c (ix2 k (⟨j'.val, hj⟩ : Fin 128))
      = joinedW (m ((c : Thread nD τ).loc main_arg1)) (m ((c : Thread nD τ).loc main_arg3)) (m ((c : Thread nD τ).loc main_arg5)) (m ((c : Thread nD τ).loc main_arg7)) (ix2 k j') := fun k => weights_apply m c k ⟨j'.val, hj⟩ j' rfl
  have hM : mkA m c (ix2 r (0 : Fin 1)) = (m ((c : Thread nD τ).loc main_arg9)) (ix1 r) := maskCol_apply m c r
  have hC : clsA m c (ix2 (0 : Fin 1) (⟨j'.val, hj⟩ : Fin 128)) = headOf j' := classIds_apply m c ⟨j'.val, hj⟩ j' rfl
  have hB : bA m c (ix2 (0 : Fin 1) (⟨j'.val, hj⟩ : Fin 128))
      = joinedB (m ((c : Thread nD τ).loc main_arg2)) (m ((c : Thread nD τ).loc main_arg4)) (m ((c : Thread nD τ).loc main_arg6)) (m ((c : Thread nD τ).loc main_arg8)) (ix1 j') := bias_apply m c ⟨j'.val, hj⟩ j' rfl
  have hX : xA m c = m ((c : Thread nD τ).loc main_arg0) := x_eq m c
  rw [hM, hC, hB, hX]
  simp only [hW]

end Cert.KernelIdeal.Whole

end
-- ==== Proof.RefHeads.lean ====
/-
  The reference program's result is the specification: each head's stage, read at row r and the head's own column c, is
  the score  ∑ₖ x(r, k) · Wₕ(k, c) + bₕ(c)  where mask(r) is the head's number h and zero elsewhere; the result joins
  the four stages along the class axis, so its column j is the stage of the head owning j at column j minus the head's
  first column — which is the specification's entry, whose joined weights and biases are read at the same place.
-/
import proofs.«178423_j18090402250892_1_alg».proof.Proof.Gen.ReferenceIdeal.Read
import proofs.«178423_j18090402250892_1_alg».proof.Proof.Spec
import Idealize.ShloMosaic.Lib.ValueIdx
import Idealize.ShloMosaic.Lib.Pipeline.Value
import Idealize.ShloMosaic.PureOps.Ideal.Laws

noncomputable section

open scoped BigOperators

namespace Cert.ReferenceIdeal.Heads

open Idealize.ShloMosaic Idealize.ShloMosaic.ValueIdx Cert.ReferenceIdeal Cert.ReferenceIdeal.Gen Cert.ReferenceIdeal.Read
open Cert.MaskedHeads

variable (x0 : (⟨S131072x512, .f32⟩ : BufTy).Contents (Elt Ideal))
variable (x1 : (⟨S512x17, .f32⟩ : BufTy).Contents (Elt Ideal)) (x2 : (⟨S17, .f32⟩ : BufTy).Contents (Elt Ideal))
variable (x3 : (⟨S512x12, .f32⟩ : BufTy).Contents (Elt Ideal)) (x4 : (⟨S12, .f32⟩ : BufTy).Contents (Elt Ideal))
variable (x5 : (⟨S512x6, .f32⟩ : BufTy).Contents (Elt Ideal)) (x6 : (⟨S6, .f32⟩ : BufTy).Contents (Elt Ideal))
variable (x7 : (⟨S512x8, .f32⟩ : BufTy).Contents (Elt Ideal)) (x8 : (⟨S8, .f32⟩ : BufTy).Contents (Elt Ideal))
variable (x9 : (⟨S131072, .i32⟩ : BufTy).Contents (Elt Ideal))

/-- Head 0's stage at (r, c). -/
theorem head0_apply (r : Fin 131072) (c : Fin 17) :
    val_main_v7 (F := Ideal) x0 x1 x2 x9 (ix2 r c)
      = Scalar.select (IntOp.cmpi .eq (x9 (ix1 r)) 0#32) ((∑ k : Fin 512, x0 (ix2 r k) * x1 (ix2 k c)) + x2 (ix1 c)) (0 : EReal) := by
  have e1 : ∀ k, lidx_main_v3 (ix2 r c) k = ix2 r k := fun k => funext fun a => Fin.ext (by
    match a with
    | ⟨0, _⟩ => rfl
    | ⟨1, _⟩ => rfl)
  have e2 : ∀ k, ridx_main_v3 (ix2 r c) k = ix2 k c := fun k => funext fun a => Fin.ext (by
    match a with
    | ⟨0, _⟩ => rfl
    | ⟨1, _⟩ => rfl)
  have e3 : idx_main_v4 (idx_main_v5 (ix2 r c)) = ix1 c := funext fun a => Fin.ext (by
    match a with
    | ⟨0, _⟩ => rfl)
  have e4 : idx_main_v2 (idx_main_call0_v1 (ix2 r c)) = ix1 r := funext fun a => Fin.ext (by
    match a with
    | ⟨0, _⟩ => rfl)
  rw [val_main_v7_apply, val_main_call0_v1_apply, val_main_v2_apply, val_main_v1_apply, val_main_v0_apply, val_main_c_apply,
    val_main_v6_apply, val_main_v3_apply, val_main_v5_apply, val_main_v4_apply, val_main_call0_v2_apply, val_main_call0_v0_apply,
    val_main_cst_apply]
  simp only [e1, e2, e3, e4]
  exact congrArg (Scalar.select _ _) Ideal.ofBits_zero_f32

/-- Head 1's stage at (r, c). -/
theorem head1_apply (r : Fin 131072) (c : Fin 12) :
    val_main_v15 (F := Ideal) x0 x3 x4 x9 (ix2 r c)
      = Scalar.select (IntOp.cmpi .eq (x9 (ix1 r)) 1#32) ((∑ k : Fin 512, x0 (ix2 r k) * x3 (ix2 k c)) + x4 (ix1 c)) (0 : EReal) := by
  have e1 : ∀ k, lidx_main_v11 (ix2 r c) k = ix2 r k := fun k => funext fun a => Fin.ext (by
    match a with
    | ⟨0, _⟩ => rfl
    | ⟨1, _⟩ => rfl)
  have e2 : ∀ k, ridx_main_v11 (ix2 r c) k = ix2 k c := fun k => funext fun a => Fin.ext (by
    match a with
    | ⟨0, _⟩ => rfl
    | ⟨1, _⟩ => rfl)
  have e3 : idx_main_v12 (idx_main_v13 (ix2 r c)) = ix1 c := funext fun a => Fin.ext (by
    match a with
    | ⟨0, _⟩ => rfl)
  have e4 : idx_main_v10 (idx_main_call1_v1 (ix2 r c)) = ix1 r := funext fun a => Fin.ext (by
    match a with
    | ⟨0, _⟩ => rfl)
  rw [val_main_v15_apply, val_main_call1_v1_apply, val_main_v10_apply, val_main_v9_apply, val_main_v8_apply, val_main_c_0_apply,
    val_main_v14_apply, val_main_v11_apply, val_main_v13_apply, val_main_v12_apply, val_main_call1_v2_apply, val_main_call1_v0_apply,
    val_main_cst_1_apply]
  simp only [e1, e2, e3, e4]
  exact congrArg (Scalar.select _ _) Ideal.ofBits_zero_f32

/-- Head 2's stage at (r, c). -/
theorem head2_apply (r : Fin 131072) (c : Fin 6) :
    val_main_v23 (F := Ideal) x0 x5 x6 x9 (ix2 r c)
      = Scalar.select (IntOp.cmpi .eq (x9 (ix1 r)) 2#32) ((∑ k : Fin 512, x0 (ix2 r k) * x5 (ix2 k c)) + x6 (ix1 c)) (0 : EReal) := by
  have e1 : ∀ k, lidx_main_v19 (ix2 r c) k = ix2 r k := fun k => funext fun a => Fin.ext (by
    match a with
    | ⟨0, _⟩ => rfl
    | ⟨1, _⟩ => rfl)
  have e2 : ∀ k, ridx_main_v19 (ix2 r c) k = ix2 k c := fun k => funext fun a => Fin.ext (by
    match a with
    | ⟨0, _⟩ => rfl
    | ⟨1, _⟩ => rfl)
  have e3 : idx_main_v20 (idx_main_v21 (ix2 r c)) = ix1 c := funext fun a => Fin.ext (by
    match a with
    | ⟨0, _⟩ => rfl)
  have e4 : idx_main_v18 (idx_main_call2_v1 (ix2 r c)) = ix1 r := funext fun a => Fin.ext (by
    match a with
    | ⟨0, _⟩ => rfl)
  rw [val_main_v23_apply, val_main_call2_v1_apply, val_main_v18_apply, val_main_v17_apply, val_main_v16_apply, val_main_c_2_apply,
    val_main_v22_apply, val_main_v19_apply, val_main_v21_apply, val_main_v20_apply, val_main_call2_v2_apply, val_main_call2_v0_apply,
    val_main_cst_3_apply]
  simp only [e1, e2, e3, e4]
  exact congrArg (Scalar.select _ _) Ideal.ofBits_zero_f32

/-- Head 3's stage at (r, c). -/
theorem head3_apply (r : Fin 131072) (c : Fin 8) :
    val_main_v31 (F := Ideal) x0 x7 x8 x9 (ix2 r c)
      = Scalar.select (IntOp.cmpi .eq (x9 (ix1 r)) 3#32) ((∑ k : Fin 512, x0 (ix2 r k) * x7 (ix2 k c)) + x8 (ix1 c)) (0 : EReal) := by
  have e1 : ∀ k, lidx_main_v27 (ix2 r c) k = ix2 r k := fun k => funext fun a => Fin.ext (by
    match a with
    | ⟨0, _⟩ => rfl
    | ⟨1, _⟩ => rfl)
  have e2 : ∀ k, ridx_main_v27 (ix2 r c) k = ix2 k c := fun k => funext fun a => Fin.ext (by
    match a with
    | ⟨0, _⟩ => rfl
    | ⟨1, _⟩ => rfl)
  have e3 : idx_main_v28 (idx_main_v29 (ix2 r c)) = ix1 c := funext fun a => Fin.ext (by
    match a with
    | ⟨0, _⟩ => rfl)
  have e4 : idx_main_v26 (idx_main_call3_v1 (ix2 r c)) = ix1 r := funext fun a => Fin.ext (by
    match a with
    | ⟨0, _⟩ => rfl)
  rw [val_main_v31_apply, val_main_call3_v1_apply, val_main_v26_apply, val_main_v25_apply, val_main_v24_apply, val_main_c_4_apply,
    val_main_v30_apply, val_main_v27_apply, val_main_v29_apply, val_main_v28_apply, val_main_call3_v2_apply, val_main_call3_v0_apply,
    val_main_cst_5_apply]
  simp only [e1, e2, e3, e4]
  exact congrArg (Scalar.select _ _) Ideal.ofBits_zero_f32

/-- The reference's result is the specification. -/
theorem result_is_spec :
    val_main_v32 (F := Ideal) x0 x1 x2 x3 x4 x5 x6 x7 x8 x9 = result x0 x1 x2 x3 x4 x5 x6 x7 x8 x9 := by
  funext i
  obtain ⟨r, j, rfl⟩ : ∃ (r : Fin 131072) (j : Fin 43), i = ix2 r j := ⟨i 0, i 1, eq_ix2 i⟩
  rw [result_apply]
  unfold entry val_main_v32
  by_cases h0 : j.val < 17
  · have hc := concatenate_apply_piece (1 : Fin S131072x43.rank)
      [⟨S131072x17, val_main_v7 (F := Ideal) x0 x1 x2 x9⟩, ⟨S131072x12, val_main_v15 (F := Ideal) x0 x3 x4 x9⟩,
        ⟨S131072x6, val_main_v23 (F := Ideal) x0 x5 x6 x9⟩, ⟨S131072x8, val_main_v31 (F := Ideal) x0 x7 x8 x9⟩]
      concatenates_S131072x17_S131072x12_S131072x6_S131072x8_S131072x43_d1 (ix2 r j) 0 (by show (0 : ℕ) < 4; decide)
      S131072x17 (val_main_v7 (F := Ideal) x0 x1 x2 x9) rfl rfl 0 rfl (ix2 r (⟨j.val, h0⟩ : Fin 17))
      (fun b hb => by
        match b with
        | ⟨0, _⟩ => rfl
        | ⟨1, _⟩ => exact absurd rfl hb)
      (by show 0 + j.val = j.val; omega)
    have hW : ∀ k, joinedW x1 x3 x5 x7 (ix2 k j) = x1 (ix2 k (⟨j.val, h0⟩ : Fin 17)) :=
      fun k => joinedW_head0 x1 x3 x5 x7 k ⟨j.val, h0⟩ j rfl
    rw [hc, head0_apply, headOf_head0 j h0, joinedB_head0 x2 x4 x6 x8 ⟨j.val, h0⟩ j rfl]
    simp only [hW]
  · by_cases h1 : j.val < 29
    · have hc := concatenate_apply_piece (1 : Fin S131072x43.rank)
        [⟨S131072x17, val_main_v7 (F := Ideal) x0 x1 x2 x9⟩, ⟨S131072x12, val_main_v15 (F := Ideal) x0 x3 x4 x9⟩,
          ⟨S131072x6, val_main_v23 (F := Ideal) x0 x5 x6 x9⟩, ⟨S131072x8, val_main_v31 (F := Ideal) x0 x7 x8 x9⟩]
        concatenates_S131072x17_S131072x12_S131072x6_S131072x8_S131072x43_d1 (ix2 r j) 1 (by show (1 : ℕ) < 4; decide)
        S131072x12 (val_main_v15 (F := Ideal) x0 x3 x4 x9) rfl rfl 17 rfl (ix2 r (⟨j.val - 17, by omega⟩ : Fin 12))
        (fun b hb => by
          match b with
          | ⟨0, _⟩ => rfl
          | ⟨1, _⟩ => exact absurd rfl hb)
        (by show 17 + (j.val - 17) = j.val; omega)
      have hj : j.val = 17 + (⟨j.val - 17, by omega⟩ : Fin 12).val := by show j.val = 17 + (j.val - 17); omega
      have hW : ∀ k, joinedW x1 x3 x5 x7 (ix2 k j) = x3 (ix2 k (⟨j.val - 17, by omega⟩ : Fin 12)) :=
        fun k => joinedW_head1 x1 x3 x5 x7 k ⟨j.val - 17, by omega⟩ j hj
      rw [hc, head1_apply, headOf_head1 j (by omega) h1, joinedB_head1 x2 x4 x6 x8 ⟨j.val - 17, by omega⟩ j hj]
      simp only [hW]
    · by_cases h2 : j.val < 35
      · have hc := concatenate_apply_piece (1 : Fin S131072x43.rank)
          [⟨S131072x17, val_main_v7 (F := Ideal) x0 x1 x2 x9⟩, ⟨S131072x12, val_main_v15 (F := Ideal) x0 x3 x4 x9⟩,
            ⟨S131072x6, val_main_v23 (F := Ideal) x0 x5 x6 x9⟩, ⟨S131072x8, val_main_v31 (F := Ideal) x0 x7 x8 x9⟩]
          concatenates_S131072x17_S131072x12_S131072x6_S131072x8_S131072x43_d1 (ix2 r j) 2 (by show (2 : ℕ) < 4; decide)
          S131072x6 (val_main_v23 (F := Ideal) x0 x5 x6 x9) rfl rfl 29 rfl (ix2 r (⟨j.val - 29, by omega⟩ : Fin 6))
          (fun b hb => by
            match b with
            | ⟨0, _⟩ => rfl
            | ⟨1, _⟩ => exact absurd rfl hb)
          (by show 29 + (j.val - 29) = j.val; omega)
        have hj : j.val = 29 + (⟨j.val - 29, by omega⟩ : Fin 6).val := by show j.val = 29 + (j.val - 29); omega
        have hW : ∀ k, joinedW x1 x3 x5 x7 (ix2 k j) = x5 (ix2 k (⟨j.val - 29, by omega⟩ : Fin 6)) :=
          fun k => joinedW_head2 x1 x3 x5 x7 k ⟨j.val - 29, by omega⟩ j hj
        rw [hc, head2_apply, headOf_head2 j (by omega) h2, joinedB_head2 x2 x4 x6 x8 ⟨j.val - 29, by omega⟩ j hj]
        simp only [hW]
      · have hlt : j.val < 43 := j.isLt
        have hc := concatenate_apply_piece (1 : Fin S131072x43.rank)
          [⟨S131072x17, val_main_v7 (F := Ideal) x0 x1 x2 x9⟩, ⟨S131072x12, val_main_v15 (F := Ideal) x0 x3 x4 x9⟩,
            ⟨S131072x6, val_main_v23 (F := Ideal) x0 x5 x6 x9⟩, ⟨S131072x8, val_main_v31 (F := Ideal) x0 x7 x8 x9⟩]
          concatenates_S131072x17_S131072x12_S131072x6_S131072x8_S131072x43_d1 (ix2 r j) 3 (by show (3 : ℕ) < 4; decide)
          S131072x8 (val_main_v31 (F := Ideal) x0 x7 x8 x9) rfl rfl 35 rfl (ix2 r (⟨j.val - 35, by omega⟩ : Fin 8))
          (fun b hb => by
            match b with
            | ⟨0, _⟩ => rfl
            | ⟨1, _⟩ => exact absurd rfl hb)
          (by show 35 + (j.val - 35) = j.val; omega)
        have hj : j.val = 35 + (⟨j.val - 35, by omega⟩ : Fin 8).val := by show j.val = 35 + (j.val - 35); omega
        have hW : ∀ k, joinedW x1 x3 x5 x7 (ix2 k j) = x7 (ix2 k (⟨j.val - 35, by omega⟩ : Fin 8)) :=
          fun k => joinedW_head3 x1 x3 x5 x7 k ⟨j.val - 35, by omega⟩ j hj
        rw [hc, head3_apply, headOf_head3 j (by omega), joinedB_head3 x2 x4 x6 x8 ⟨j.val - 35, by omega⟩ j hj]
        simp only [hW]

end Cert.ReferenceIdeal.Heads

end
-- ==== Proof.lean ====
/-
  The certificate of the masked-classifier kernel.

  Four linear heads of 17, 12, 6 and 8 classes read one batch x of 131072 rows and 512 features; a routing word per row
  says which head the row belongs to. The reference computes each head's scores x·Wₕ + bₕ, zeroes the rows not routed
  to the head, and joins the four results along the class axis into 131072 × 43. The kernel joins the four weight
  matrices and the four bias vectors first, pads them with zero columns to width 128, multiplies each tile of 4096 rows
  once against the joined matrix, adds the joined bias, keeps an entry where the row's routing word equals the class id
  of the entry's column and writes zero elsewhere, and finally drops the 85 padding columns.

  Over the extended reals the two agree entry by entry: column j of the joined matrix is column j − (first column of
  the owning head) of that head's matrix, likewise for the bias, the class id of column j is the owning head's number,
  rounding the operands to bf16 is the identity, and the matrix unit's sum into zeros is the plain sum over the 512
  features; no law beyond reading the same finite sum is used, so finiteness of the inputs is never opened.

  The frames: both kernel programs run their eleven host lines, the 32-point pipelined region and the final slice
  without a fault and leave the ten arguments as launched (Proof/KernelFrame.lean, Proof/KernelIdealFrame.lean); the
  reference is a straight line of host operations. The idealization rewrote nothing, so `preserves` is `True`.
-/
import proofs.«178423_j18090402250892_1_alg».proof.Defs
import proofs.«178423_j18090402250892_1_alg».proof.Proof.Gen.Kernel
import proofs.«178423_j18090402250892_1_alg».proof.Proof.Gen.KernelIdeal
import proofs.«178423_j18090402250892_1_alg».proof.Proof.Gen.ReferenceIdeal
import proofs.«178423_j18090402250892_1_alg».proof.Proof.Gen.Pre_finite_inputs
import proofs.«178423_j18090402250892_1_alg».proof.Proof.KernelFrame
import proofs.«178423_j18090402250892_1_alg».proof.Proof.KernelSpec
import proofs.«178423_j18090402250892_1_alg».proof.Proof.RefHeads
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_k : Cert.frame_Kernel := fun m ρ _ =>
  (θ_run Cert.Kernel.defs _ _).mono (fun _ h c => (h c).2) (Cert.Kernel.Frame.run_read (F := Bits) m ρ)

/-- So does the idealized kernel program. -/
theorem frame_ki : Cert.frame_KernelIdeal := fun m ρ _ =>
  (θ_run Cert.KernelIdeal.defs _ _).mono (fun _ h c => (h c).2) (Cert.KernelIdeal.Frame.run_read (F := Ideal) m ρ)

/-- The reference is host operations only: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten when the kernel was idealized. -/
theorem preserves : Cert.preserves_Kernel_KernelIdeal := trivial

/-- From memories agreeing on the ten arguments both idealized programs end with the specification's result. -/
theorem algebraic : Cert.algebraic_KernelIdeal_ReferenceIdeal := by
  intro m ρ m' ρ' _ hagree
  refine ⟨fun c => Cert.KernelIdeal.Frame.finalV m c Cert.KernelIdeal.main_v7, Cert.KernelIdeal.Frame.run_read (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9⟩ := hagree c
  rw [Cert.ReferenceIdeal.Read.val_main_v32_eq, Cert.ReferenceIdeal.Heads.result_is_spec, a0, a1, a2, a3, a4, a5, a6, a7, a8, a9]
  exact (Cert.KernelIdeal.Whole.kernel_is_spec m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
